-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x39 : Shape := ⟨2, ![8192, 39]⟩
abbrev S1000000x16 : Shape := ⟨2, ![1000000, 16]⟩
abbrev S741x1 : Shape := ⟨2, ![741, 1]⟩
abbrev S1000000 : Shape := ⟨1, ![1000000]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S741x1 : S_.BroadcastsInDim S741x1 (![] : Fin 0 → Fin S741x1.rank)
  reducesTo_S741x1_S_d0_1 : S741x1.ReducesTo [0, 1] S_
  bcast_S_S1000000 : S_.BroadcastsInDim S1000000 (![] : Fin 0 → Fin S1000000.rank)
  reducesTo_S1000000_S_d0 : S1000000.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : IVec S8192x39 32) (main_arg1 : FVec F S1000000x16 .f32) (main_arg2 : FVec F S741x1 .f32) (main_arg3 : FVec F S1000000 .f32) (main_arg4 : FVec F S_ .f32) : IVec S_ 1 :=
  let main_v0 : FVec F S1000000x16 .f32 := Host.absf main_arg1
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S741x1 .f32 := Host.absf main_arg2
  let main_cst_0 : FVec F S_ .f32 := constant S_ .f32 0x7F800000#32
  let main_v5 : FVec F S741x1 .f32 := broadcastInDim S741x1 ![] bcast_S_S741x1 main_cst_0
  let main_v6 : IVec S741x1 1 := cmpf .olt main_v4 main_v5
  let main_c_1 : IVec S_ 1 := constantI S_ 1 1#1
  let main_v7 : IVec S_ 1 := (fun x v => Host.reduce IntOp.andi x v reducesTo_S741x1_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x39 : Shape := ⟨2, ![8192, 39]⟩
abbrev S1000000x16 : Shape := ⟨2, ![1000000, 16]⟩
abbrev S741x1 : Shape := ⟨2, ![741, 1]⟩
abbrev S1000000 : Shape := ⟨1, ![1000000]⟩
abbrev S_ : Shape := ⟨0, ![]⟩
abbrev S741x2 : Shape := ⟨2, ![741, 2]⟩
abbrev S8192x39x1 : Shape := ⟨3, ![8192, 39, 1]⟩
abbrev S8192x39x16 : Shape := ⟨3, ![8192, 39, 16]⟩
abbrev S8192 : Shape := ⟨1, ![8192]⟩
abbrev S8192x1 : Shape := ⟨2, ![8192, 1]⟩
abbrev S39x39 : Shape := ⟨2, ![39, 39]⟩
abbrev S741 : Shape := ⟨1, ![741]⟩
abbrev S1024x39x16 : Shape := ⟨3, ![1024, 39, 16]⟩
abbrev S1024x1 : Shape := ⟨2, ![1024, 1]⟩
abbrev S1024x39x39 : Shape := ⟨3, ![1024, 39, 39]⟩
abbrev S1x39x39 : Shape := ⟨3, ![1, 39, 39]⟩
abbrev S1024x39 : Shape := ⟨2, ![1024, 39]⟩
abbrev S1024 : Shape := ⟨1, ![1024]⟩

abbrev nBuf : Space → Nat
  | .hbm => 55
  | .vmem => 7
  | .smem => 0
  | _ => 0

abbrev bufTy : (tb : Table) → Fin (tcTables nBuf tb) → BufTy
  | .hbm, ⟨0, _⟩ => ⟨S8192x39, .i32⟩
  | .hbm, ⟨1, _⟩ => ⟨S1000000x16, .f32⟩
  | .hbm, ⟨2, _⟩ => ⟨S741x1, .f32⟩
  | .hbm, ⟨3, _⟩ => ⟨S1000000, .f32⟩
  | .hbm, ⟨4, _⟩ => ⟨S_, .f32⟩
  | .hbm, ⟨5, _⟩ => ⟨S741x2, .i32⟩
  | .hbm, ⟨6, _⟩ => ⟨S_, .i32⟩
  | .hbm, ⟨7, _⟩ => ⟨S8192x39, .i32⟩
  | .hbm, ⟨8, _⟩ => ⟨S8192x39, .i1⟩
  | .hbm, ⟨9, _⟩ => ⟨S_, .i32⟩
  | .hbm, ⟨10, _⟩ => ⟨S8192x39, .i32⟩
  | .hbm, ⟨11, _⟩ => ⟨S8192x39, .i32⟩
  | .hbm, ⟨12, _⟩ => ⟨S8192x39, .i32⟩
  | .hbm, ⟨13, _⟩ => ⟨S8192x39x1, .i32⟩
  | .hbm, ⟨14, _⟩ => ⟨S8192x39x16, .f32⟩
  | .hbm, ⟨15, _⟩ => ⟨S_, .i32⟩
  | .hbm, ⟨16, _⟩ => ⟨S8192x39, .i32⟩
  | .hbm, ⟨17, _⟩ => ⟨S8192x39, .i1⟩
  | .hbm, ⟨18, _⟩ => ⟨S_, .i32⟩
  | .hbm, ⟨19, _⟩ => ⟨S8192x39, .i32⟩
  | .hbm, ⟨20, _⟩ => ⟨S8192x39, .i32⟩
  | .hbm, ⟨21, _⟩ => ⟨S8192x39, .i32⟩
  | .hbm, ⟨22, _⟩ => ⟨S8192x39x1, .i32⟩
  | .hbm, ⟨23, _⟩ => ⟨S8192x39, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S39x39, .f32⟩
  | .hbm, ⟨29, _⟩ => ⟨S741x1, .i32⟩
  | .hbm, ⟨30, _⟩ => ⟨S741, .i32⟩
  | .hbm, ⟨31, _⟩ => ⟨S741x1, .i32⟩
  | .hbm, ⟨32, _⟩ => ⟨S741, .i32⟩
  | .hbm, ⟨33, _⟩ => ⟨S741, .f32⟩
  | .hbm, ⟨34, _⟩ => ⟨S_, .i32⟩
  | .hbm, ⟨35, _⟩ => ⟨S741, .i32⟩
  | .hbm, ⟨36, _⟩ => ⟨S741, .i1⟩
  | .hbm, ⟨37, _⟩ => ⟨S_, .i32⟩
  | .hbm, ⟨38, _⟩ => ⟨S741, .i32⟩
  | .hbm, ⟨39, _⟩ => ⟨S741, .i32⟩
  | .hbm, ⟨40, _⟩ => ⟨S741, .i32⟩
  | .hbm, ⟨41, _⟩ => ⟨S_, .i32⟩
  | .hbm, ⟨42, _⟩ => ⟨S741, .i32⟩
  | .hbm, ⟨43, _⟩ => ⟨S741, .i1⟩
  | .hbm, ⟨44, _⟩ => ⟨S_, .i32⟩
  | .hbm, ⟨45, _⟩ => ⟨S741, .i32⟩
  | .hbm, ⟨46, _⟩ => ⟨S741, .i32⟩
  | .hbm, ⟨47, _⟩ => ⟨S741, .i32⟩
  | .hbm, ⟨48, _⟩ => ⟨S741x1, .i32⟩
  | .hbm, ⟨49, _⟩ => ⟨S741x1, .i32⟩
  | .hbm, ⟨50, _⟩ => ⟨S741x2, .i32⟩
  | .hbm, ⟨51, _⟩ => ⟨S39x39, .f32⟩
  | .hbm, ⟨52, _⟩ => ⟨S8192x1, .f32⟩
  | .hbm, ⟨53, _⟩ => ⟨S8192x1, .f32⟩
  | .hbm, ⟨54, _⟩ => ⟨S8192x1, .f32⟩
  | .local _ .vmem, ⟨0, _⟩ => ⟨S1024x39x16, .f32⟩
  | .local _ .vmem, ⟨1, _⟩ => ⟨S1024x39x16, .f32⟩
  | .local _ .vmem, ⟨2, _⟩ => ⟨S1024x1, .f32⟩
  | .local _ .vmem, ⟨3, _⟩ => ⟨S1024x1, .f32⟩
  | .local _ .vmem, ⟨4, _⟩ => ⟨S39x39, .f32⟩
  | .local _ .vmem, ⟨5, _⟩ => ⟨S1024x1, .f32⟩
  | .local _ .vmem, ⟨6, _⟩ => ⟨S1024x1, .f32⟩
  | _, _ => ⟨S8192x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x39x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S39x39 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192x39 : S_.BroadcastsInDim S8192x39 (![] : Fin 0 → Fin S8192x39.rank)
  bcast_S8192x39_S8192x39x1_0_1 : S8192x39.BroadcastsInDim S8192x39x1 (![0, 1] : Fin 2 → Fin S8192x39x1.rank)
  reducesTo_S8192x39_S8192_d1 : S8192x39.ReducesTo [1] S8192
  h_S_ : 0 < S_.numel
  bcast_S8192_S8192x1_0 : S8192.BroadcastsInDim S8192x1 (![0] : Fin 1 → Fin S8192x1.rank)
  bcast_S_S39x39 : S_.BroadcastsInDim S39x39 (![] : Fin 0 → Fin S39x39.rank)
  slices_S741x2_S741x1_0_0 : S741x2.Slices ![0, 0] S741x1
  shapeCasts_S741x1_S741 : S741x1.ShapeCasts S741
  slices_S741x2_S741x1_0_1 : S741x2.Slices ![0, 1] S741x1
  bcast_S_S741 : S_.BroadcastsInDim S741 (![] : Fin 0 → Fin S741.rank)
  bcast_S741_S741x1_0 : S741.BroadcastsInDim S741x1 (![0] : Fin 1 → Fin S741x1.rank)
  concatenates_S741x1_S741x1_S741x2_d1 : Shape.Concatenates [S741x1, S741x1] S741x2 1
  inb_S1024x39x16_S1024x39x16_0_0_0 : ∀ a, (![0, 0, 0] : Fin 3 → Nat) a + S1024x39x16.size a ≤ S1024x39x16.size a
  h_S1024x39x16 : 0 < S1024x39x16.numel
  shapeCasts_S1024x39x16_S1024x39x16 : S1024x39x16.ShapeCasts S1024x39x16
  bitsLt_bf16_f32 : FTy.bits .bf16 < FTy.bits .f32
  inb_S39x39_S39x39_0_0 : ∀ a, (![0, 0] : Fin 2 → Nat) a + S39x39.size a ≤ S39x39.size a
  h_S39x39 : 0 < S39x39.numel
  shapeCasts_S39x39_S39x39 : S39x39.ShapeCasts S39x39
  shapeCasts_S39x39_S1x39x39 : S39x39.ShapeCasts S1x39x39
  broadcasts_S1x39x39_S1024x39x39 : S1x39x39.Broadcasts S1024x39x39
  reduces_S1024x39x39_S1024x39 : S1024x39x39.Reduces [2] S1024x39
  reduces_S1024x39_S1024 : S1024x39.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bcast_S_S8192x1 : S_.BroadcastsInDim S8192x1 (![] : Fin 0 → Fin S8192x1.rank)
  gather_S1000000x16_S8192x39x1_S8192x39x16_2_0_n_n_0_2_116_wf : GatherDims.WF S1000000x16 S8192x39x1 S8192x39x16 [2] [0] [] [0] [] 2 ![1, 16]
  gather_S1000000_S8192x39x1_S8192x39_n_0_n_n_0_2_1_wf : GatherDims.WF S1000000 S8192x39x1 S8192x39 [] [0] [] [0] [] 2 ![1]
  scatter_S39x39_S741x2_S741_n_01_01_1_wf : ScatterDims.WF S39x39 S741x2 S741 [] [0, 1] [0, 1] 1
  dot_S1024x39x16_S1024x39x16_S1024x39x39_2_2_1_1_0_0_wf : DotDims.WF S1024x39x16 S1024x39x16 S1024x39x39 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x39x16.size a ≤ S8192x39x16.size a
  hwx0_0 : ∀ i : grid0.Coords, EltTy.bits .f32 = 32 ∨ (Rect.block (s := S8192x39x16) S1024x39x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S39x39.size a ≤ S39x39.size a
  hwx0_2 : ∀ i : grid0.Coords, EltTy.bits .f32 = 32 ∨ (Rect.block (s := S39x39) S39x39.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def gather_S1000000x16_S8192x39x1_S8192x39x16_2_0_n_n_0_2_116 : GatherDims S1000000x16 S8192x39x1 S8192x39x16 where
  offsetDims := [2]
  collapsedSliceDims := [0]
  operandBatchingDims := []
  startIndicesBatchingDims := []
  startIndexMap := [0]
  indexVectorDim := 2
  sliceSizes := ![1, 16]
  wf := gather_S1000000x16_S8192x39x1_S8192x39x16_2_0_n_n_0_2_116_wf
def gather_S1000000_S8192x39x1_S8192x39_n_0_n_n_0_2_1 : GatherDims S1000000 S8192x39x1 S8192x39 where
  offsetDims := []
  collapsedSliceDims := [0]
  operandBatchingDims := []
  startIndicesBatchingDims := []
  startIndexMap := [0]
  indexVectorDim := 2
  sliceSizes := ![1]
  wf := gather_S1000000_S8192x39x1_S8192x39_n_0_n_n_0_2_1_wf
def scatter_S39x39_S741x2_S741_n_01_01_1 : ScatterDims S39x39 S741x2 S741 where
  updateWindowDims := []
  insertedWindowDims := [0, 1]
  scatterDimsToOperandDims := [0, 1]
  indexVectorDim := 1
  wf := scatter_S39x39_S741x2_S741_n_01_01_1_wf
def dot_S1024x39x16_S1024x39x16_S1024x39x39_2_2_1_1_0_0 : DotDims S1024x39x16 S1024x39x16 S1024x39x39 where
  lhsContracting := [2]
  rhsContracting := [2]
  lhsNonContracting := [1]
  rhsNonContracting := [1]
  lhsBatch := [0]
  rhsBatch := [0]
  wf := dot_S1024x39x16_S1024x39x16_S1024x39x39_2_2_1_1_0_0_wf

abbrev win0_0 : Pipeline.Window sig grid0 :=
  Pipeline.Window.ofSpec (Memref.whole main_v6) S1024x39x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S39x39.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x39 : Shape := ⟨2, ![8192, 39]⟩
abbrev S1000000x16 : Shape := ⟨2, ![1000000, 16]⟩
abbrev S741x1 : Shape := ⟨2, ![741, 1]⟩
abbrev S1000000 : Shape := ⟨1, ![1000000]⟩
abbrev S_ : Shape := ⟨0, ![]⟩
abbrev S741x2 : Shape := ⟨2, ![741, 2]⟩
abbrev S8192x39x1 : Shape := ⟨3, ![8192, 39, 1]⟩
abbrev S8192 : Shape := ⟨1, ![8192]⟩
abbrev S8192x1 : Shape := ⟨2, ![8192, 1]⟩
abbrev S8192x39x16 : Shape := ⟨3, ![8192, 39, 16]⟩
abbrev S741 : Shape := ⟨1, ![741]⟩
abbrev S8192x741x16 : Shape := ⟨3, ![8192, 741, 16]⟩
abbrev S8192x741 : Shape := ⟨2, ![8192, 741]⟩

abbrev nBuf : Space → Nat
  | .hbm => 59
  | .vmem => 0
  | .smem => 0
  | _ => 0

abbrev bufTy : (tb : Table) → Fin (tcTables nBuf tb) → BufTy
  | .hbm, ⟨0, _⟩ => ⟨S8192x39, .i32⟩
  | .hbm, ⟨1, _⟩ => ⟨S1000000x16, .f32⟩
  | .hbm, ⟨2, _⟩ => ⟨S741x1, .f32⟩
  | .hbm, ⟨3, _⟩ => ⟨S1000000, .f32⟩
  | .hbm, ⟨4, _⟩ => ⟨S_, .f32⟩
  | .hbm, ⟨5, _⟩ => ⟨S741x2, .i32⟩
  | .hbm, ⟨6, _⟩ => ⟨S_, .i32⟩
  | .hbm, ⟨7, _⟩ => ⟨S8192x39, .i32⟩
  | .hbm, ⟨8, _⟩ => ⟨S8192x39, .i1⟩
  | .hbm, ⟨9, _⟩ => ⟨S_, .i32⟩
  | .hbm, ⟨10, _⟩ => ⟨S8192x39, .i32⟩
  | .hbm, ⟨11, _⟩ => ⟨S8192x39, .i32⟩
  | .hbm, ⟨12, _⟩ => ⟨S8192x39, .i32⟩
  | .hbm, ⟨13, _⟩ => ⟨S8192x39x1, .i32⟩
  | .hbm, ⟨14, _⟩ => ⟨S8192x39, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .i32⟩
  | .hbm, ⟨23, _⟩ => ⟨S8192x39, .i32⟩
  | .hbm, ⟨24, _⟩ => ⟨S8192x39, .i1⟩
  | .hbm, ⟨25, _⟩ => ⟨S_, .i32⟩
  | .hbm, ⟨26, _⟩ => ⟨S8192x39, .i32⟩
  | .hbm, ⟨27, _⟩ => ⟨S8192x39, .i32⟩
  | .hbm, ⟨28, _⟩ => ⟨S8192x39, .i32⟩
  | .hbm, ⟨29, _⟩ => ⟨S8192x39x1, .i32⟩
  | .hbm, ⟨30, _⟩ => ⟨S8192x39x16, .f32⟩
  | .hbm, ⟨31, _⟩ => ⟨S741x1, .i32⟩
  | .hbm, ⟨32, _⟩ => ⟨S741, .i32⟩
  | .hbm, ⟨33, _⟩ => ⟨S_, .i32⟩
  | .hbm, ⟨34, _⟩ => ⟨S741, .i32⟩
  | .hbm, ⟨35, _⟩ => ⟨S741, .i1⟩
  | .hbm, ⟨36, _⟩ => ⟨S_, .i32⟩
  | .hbm, ⟨37, _⟩ => ⟨S741, .i32⟩
  | .hbm, ⟨38, _⟩ => ⟨S741, .i32⟩
  | .hbm, ⟨39, _⟩ => ⟨S741, .i32⟩
  | .hbm, ⟨40, _⟩ => ⟨S741x1, .i32⟩
  | .hbm, ⟨41, _⟩ => ⟨S8192x741x16, .f32⟩
  | .hbm, ⟨42, _⟩ => ⟨S741x1, .i32⟩
  | .hbm, ⟨43, _⟩ => ⟨S741, .i32⟩
  | .hbm, ⟨44, _⟩ => ⟨S_, .i32⟩
  | .hbm, ⟨45, _⟩ => ⟨S741, .i32⟩
  | .hbm, ⟨46, _⟩ => ⟨S741, .i1⟩
  | .hbm, ⟨47, _⟩ => ⟨S_, .i32⟩
  | .hbm, ⟨48, _⟩ => ⟨S741, .i32⟩
  | .hbm, ⟨49, _⟩ => ⟨S741, .i32⟩
  | .hbm, ⟨50, _⟩ => ⟨S741, .i32⟩
  | .hbm, ⟨51, _⟩ => ⟨S741x1, .i32⟩
  | .hbm, ⟨52, _⟩ => ⟨S8192x741x16, .f32⟩
  | .hbm, ⟨53, _⟩ => ⟨S8192x741x16, .f32⟩
  | .hbm, ⟨54, _⟩ => ⟨S_, .f32⟩
  | .hbm, ⟨55, _⟩ => ⟨S8192x741, .f32⟩
  | .hbm, ⟨56, _⟩ => ⟨S8192x1, .f32⟩
  | .hbm, ⟨57, _⟩ => ⟨S8192x1, .f32⟩
  | .hbm, ⟨58, _⟩ => ⟨S8192x1, .f32⟩
  | _, _ => ⟨S8192x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S8192x39 : S_.BroadcastsInDim S8192x39 (![] : Fin 0 → Fin S8192x39.rank)
  bcast_S8192x39_S8192x39x1_0_1 : S8192x39.BroadcastsInDim S8192x39x1 (![0, 1] : Fin 2 → Fin S8192x39x1.rank)
  reducesTo_S8192x39_S8192_d1 : S8192x39.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  slices_S741x2_S741x1_0_0 : S741x2.Slices ![0, 0] S741x1
  shapeCasts_S741x1_S741 : S741x1.ShapeCasts S741
  bcast_S_S741 : S_.BroadcastsInDim S741 (![] : Fin 0 → Fin S741.rank)
  bcast_S741_S741x1_0 : S741.BroadcastsInDim S741x1 (![0] : Fin 1 → Fin S741x1.rank)
  slices_S741x2_S741x1_0_1 : S741x2.Slices ![0, 1] S741x1
  reducesTo_S8192x741x16_S8192x741_d2 : S8192x741x16.ReducesTo [2] S8192x741
  gather_S1000000_S8192x39x1_S8192x39_n_0_n_n_0_2_1_wf : GatherDims.WF S1000000 S8192x39x1 S8192x39 [] [0] [] [0] [] 2 ![1]
  gather_S1000000x16_S8192x39x1_S8192x39x16_2_0_n_n_0_2_116_wf : GatherDims.WF S1000000x16 S8192x39x1 S8192x39x16 [2] [0] [] [0] [] 2 ![1, 16]
  gather_S8192x39x16_S741x1_S8192x741x16_02_1_n_n_1_1_8192116_wf : GatherDims.WF S8192x39x16 S741x1 S8192x741x16 [0, 2] [1] [] [1] [] 1 ![8192, 1, 16]
  dot_S8192x741_S741x1_S8192x1_1_0_0_1_n_n_wf : DotDims.WF S8192x741 S741x1 S8192x1 [1] [0] [0] [1] [] []

variable [Facts₀]

def gather_S1000000_S8192x39x1_S8192x39_n_0_n_n_0_2_1 : GatherDims S1000000 S8192x39x1 S8192x39 where
  offsetDims := []
  collapsedSliceDims := [0]
  operandBatchingDims := []
  startIndicesBatchingDims := []
  startIndexMap := [0]
  indexVectorDim := 2
  sliceSizes := ![1]
  wf := gather_S1000000_S8192x39x1_S8192x39_n_0_n_n_0_2_1_wf
def gather_S1000000x16_S8192x39x1_S8192x39x16_2_0_n_n_0_2_116 : GatherDims S1000000x16 S8192x39x1 S8192x39x16 where
  offsetDims := [2]
  collapsedSliceDims := [0]
  operandBatchingDims := []
  startIndicesBatchingDims := []
  startIndexMap := [0]
  indexVectorDim := 2
  sliceSizes := ![1, 16]
  wf := gather_S1000000x16_S8192x39x1_S8192x39x16_2_0_n_n_0_2_116_wf
def gather_S8192x39x16_S741x1_S8192x741x16_02_1_n_n_1_1_8192116 : GatherDims S8192x39x16 S741x1 S8192x741x16 where
  offsetDims := [0, 2]
  collapsedSliceDims := [1]
  operandBatchingDims := []
  startIndicesBatchingDims := []
  startIndexMap := [1]
  indexVectorDim := 1
  sliceSizes := ![8192, 1, 16]
  wf := gather_S8192x39x16_S741x1_S8192x741x16_02_1_n_n_1_1_8192116_wf
def dot_S8192x741_S741x1_S8192x1_1_0_0_1_n_n : DotDims S8192x741 S741x1 S8192x1 where
  lhsContracting := [1]
  rhsContracting := [0]
  lhsNonContracting := [0]
  rhsNonContracting := [1]
  lhsBatch := []
  rhsBatch := []
  wf := dot_S8192x741_S741x1_S8192x1_1_0_0_1_n_n_wf

class Facts : Prop extends Facts₀ where

variable [Facts]
-- ==== Proof.KerTerms.lean ====
/-
  The host computations ahead of the kernel launch, named as functions of the argument arrays.

  normIdx is jnp's reading of a possibly negative position (a negative one counts from the end); embOf gathers each
  field's embedding row, foOf sums each row's gathered linear weights, pairCol reads one column of the literal table of
  pairs the same way, and w2Of places the 741 pair weights at their (i, j) entries of a 39 × 39 matrix of zeros.
-/
import proofs.«151562_j47021301957264_1_alg».proof.KernelIdeal

noncomputable section

namespace Cert.KernelIdeal.Fwfm

open Idealize.ShloMosaic Cert.KernelIdeal

variable {F : FTy → Type} [FloatOps F] [Facts]
open Facts₀ Facts

/-- Positions into the tables of a million rows, a negative one counted from the end. -/
def normIdx (a0 : IVec S8192x39 32) : IVec S8192x39x1 32 :=
  broadcastInDim S8192x39x1 ![0, 1] bcast_S8192x39_S8192x39x1_0_1
    (select (cmpi .slt a0 (broadcastInDim S8192x39 ![] bcast_S_S8192x39 (constantI S_ 32 0#32)))
      (addi a0 (broadcastInDim S8192x39 ![] bcast_S_S8192x39 (constantI S_ 32 1000000#32))) a0)

/-- Each field's embedding row. -/
def embOf (a0 : IVec S8192x39 32) (a1 : FVec F S1000000x16 .f32) : FVec F S8192x39x16 .f32 :=
  Host.gather gather_S1000000x16_S8192x39x1_S8192x39x16_2_0_n_n_0_2_116 a1 (normIdx a0)

/-- The first-order term: each row's sum of gathered linear weights, as a column. -/
def foOf (a0 : IVec S8192x39 32) (a3 : FVec F S1000000 .f32) : FVec F S8192x1 .f32 :=
  broadcastInDim S8192x1 ![0] bcast_S8192_S8192x1_0
    (Host.reduceAdd (Host.gather gather_S1000000_S8192x39x1_S8192x39_n_0_n_n_0_2_1 a3 (normIdx a0))
      (constant S_ .f32 0x00000000#32) reducesTo_S8192x39_S8192_d1 h_S_)

/-- The literal table of pairs. -/
def pairTable : IVec S741x2 32 := fun i => lit0 (S741x2.rowMajor i)

/-- One column of a [741, 1] slice of the table as a vector, a negative entry counted from 39. -/
def normCol (col : IVec S741x1 32) : IVec S741 32 :=
  select (cmpi .slt (shapeCast S741 col shapeCasts_S741x1_S741) (broadcastInDim S741 ![] bcast_S_S741 (constantI S_ 32 0#32)))
    (addi (shapeCast S741 col shapeCasts_S741x1_S741) (broadcastInDim S741 ![] bcast_S_S741 (constantI S_ 32 39#32)))
    (shapeCast S741 col shapeCasts_S741x1_S741)

/-- The pairs as the [741, 2] table of scatter positions. -/
def pairIdx : IVec S741x2 32 :=
  concatenate S741x2 1
    [⟨S741x1, broadcastInDim S741x1 ![0] bcast_S741_S741x1_0 (normCol (extractStridedSlice S741x1 ![0, 0] pairTable slices_S741x2_S741x1_0_0))⟩,
     ⟨S741x1, broadcastInDim S741x1 ![0] bcast_S741_S741x1_0 (normCol (extractStridedSlice S741x1 ![0, 1] pairTable slices_S741x2_S741x1_0_1))⟩]
    concatenates_S741x1_S741x1_S741x2_d1

/-- The pair weights placed at their entries of a 39 × 39 matrix of zeros. -/
def w2Of (a2 : FVec F S741x1 .f32) : FVec F S39x39 .f32 :=
  Host.scatter scatter_S39x39_S741x2_S741_n_01_01_1 (fun _ b => b)
    (broadcastInDim S39x39 ![] bcast_S_S39x39 (constant S_ .f32 0x00000000#32)) pairIdx
    (shapeCast S741 a2 shapeCasts_S741x1_S741)

end Cert.KernelIdeal.Fwfm

end
-- ==== Proof.KerEntry.lean ====
/-
  What the kernel launch finds in its three input arrays: the gathered embeddings, the first-order column and the
  39 × 39 pair-weight matrix, each the named host computation of the argument arrays.
-/
import proofs.«151562_j47021301957264_1_alg».proof.Proof.Gen.KernelIdeal.Frame
import proofs.«151562_j47021301957264_1_alg».proof.Proof.KerTerms
import Idealize.ShloMosaic.Lib.StableHlo.Run

noncomputable section

namespace Cert.KernelIdeal.Fwfm

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The first window's array holds the gathered embeddings. -/
theorem V_emb (c : Dev nD) :
    (V m c main_v6 : FVec F S8192x39x16 .f32) = embOf (m ((c.tc : Thread nD τ).loc main_arg0)) (m ((c.tc : Thread nD τ).loc main_arg1)) := by
  show StableHlo.after hostOps0 (fun b => m (c, b)) (Proc.devRef .tc main_v6) = _
  after_results_simp
  rfl

/-- The second window's array holds the first-order column. -/
theorem V_fo (c : Dev nD) :
    (V m c main_v15 : FVec F S8192x1 .f32) = foOf (m ((c.tc : Thread nD τ).loc main_arg0)) (m ((c.tc : Thread nD τ).loc main_arg3)) := by
  show StableHlo.after hostOps0 (fun b => m (c, b)) (Proc.devRef .tc main_v15) = _
  after_results_simp
  rfl

set_option maxHeartbeats 4000000 in
/-- The third window's array holds the pair-weight matrix. -/
theorem V_w2 (c : Dev nD) :
    (V m c main_v35 : FVec F S39x39 .f32) = w2Of (m ((c.tc : Thread nD τ).loc main_arg2)) := by
  show StableHlo.after hostOps0 (fun b => m (c, b)) (Proc.devRef .tc main_v35) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.KernelIdeal.Fwfm

end
-- ==== Proof.KerPayload.lean ====
/-
  The kernel body's stored value at row p of a block: the 39 × 39 Gram matrix of the row's embeddings times the weight
  matrix entrywise, summed over the columns and then over the rows, plus the row's first-order entry.
-/
import proofs.«151562_j47021301957264_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Fwfm

open Idealize.ShloMosaic Idealize.ShloMosaic.ValueIdx Cert.KernelIdeal Cert.KernelIdeal.Gen

/-- Entry (p, 0) of the one-column view of a vector is its entry p: both sit at row-major position p. -/
private theorem col_apply {α : Type} (v : S1024.Idx → α) (h : S1024.ShapeCasts S1024x1) (p : Fin 1024) :
    shapeCast S1024x1 v h (ix2 p (0 : Fin 1)) = v (ix1 p) := by
  refine shapeCast_apply v h _ _ ?_
  rw [Shape.rowMajor_val_one, Shape.rowMajor_val_two]
  show p.val = p.val * 1 + 0
  omega

/-- The sum over the second axis of a [1024, 39] array, read at row p. -/
private theorem sum_axis1_apply (v : FVec Ideal S1024x39 .f32) (acc : BitVec (FTy.bits .f32)) (h : S1024x39.Reduces [1] S1024)
    (hφ : FKind.Formats .f32) (hacc : acc = FKind.add.neutral .f32 hφ) (p : Fin 1024) :
    multiReduction (F := Ideal) .add [1] S1024 v acc h hφ hacc (ix1 p) = ∑ f : Fin 39, v (ix2 p f) := by
  refine (Ideal.multiReduction_add_single v acc h hφ hacc (ix1 p)).trans ?_
  refine Finset.sum_congr rfl fun k _ => congrArg v ?_
  funext a
  apply Fin.ext
  match a with
  | ⟨0, _⟩ => rfl
  | ⟨1, _⟩ => rfl

/-- The sum over the third axis of a [1024, 39, 39] array, read at (p, f). -/
private theorem sum_axis2_apply (v : FVec Ideal S1024x39x39 .f32) (acc : BitVec (FTy.bits .f32)) (h : S1024x39x39.Reduces [2] S1024x39)
    (hφ : FKind.Formats .f32) (hacc : acc = FKind.add.neutral .f32 hφ) (p : Fin 1024) (f : Fin 39) :
    multiReduction (F := Ideal) .add [2] S1024x39 v acc h hφ hacc (ix2 p f) = ∑ g : Fin 39, v (ix3 p f g) := by
  refine (Ideal.multiReduction_add_single v acc h hφ hacc (ix2 p f)).trans ?_
  refine Finset.sum_congr rfl fun k _ => congrArg v ?_
  funext a
  apply Fin.ext
  match a with
  | ⟨0, _⟩ => rfl
  | ⟨1, _⟩ => rfl
  | ⟨2, _⟩ => rfl

/-- The weight matrix viewed as one [1, 39, 39] slab and repeated along the batch axis, read at (p, f, g): entry (f, g). -/
private theorem weights_apply {α : Type} (w : S39x39.Idx → α) (hc : S39x39.ShapeCasts S1x39x39) (hb : S1x39x39.Broadcasts S1024x39x39)
    (p : Fin 1024) (f g : Fin 39) :
    broadcastTo S1024x39x39 (shapeCast S1x39x39 w hc) hb (ix3 p f g) = w (ix2 f g) := by
  refine (broadcastTo_apply _ hb (ix3 p f g) (ix3 (0 : Fin 1) f g) fun a => ?_).trans ?_
  · match a with
    | ⟨0, _⟩ => rfl
    | ⟨1, _⟩ => rfl
    | ⟨2, _⟩ => rfl
  · refine shapeCast_apply w hc _ _ ?_
    rw [Shape.rowMajor_val_two, Shape.rowMajor_val_three]
    show f.val * 39 + g.val = (0 * 39 + f.val) * 39 + g.val
    omega

/-! The batched product's operand indices at output index j and contraction position k, axis by axis: the batch axis and
    the row axis read j, the contracted axis reads k. -/

private theorem lhs_axis0 (j : S1024x39x39.Idx) (k : dot_S1024x39x16_S1024x39x16_S1024x39x39_2_2_1_1_0_0.contr.Idx) :
    (dot_S1024x39x16_S1024x39x16_S1024x39x39_2_2_1_1_0_0.lhsIdx j k (0 : Fin 3)).val = (j (0 : Fin 3)).val := rfl

private theorem lhs_axis1 (j : S1024x39x39.Idx) (k : dot_S1024x39x16_S1024x39x16_S1024x39x39_2_2_1_1_0_0.contr.Idx) :
    (dot_S1024x39x16_S1024x39x16_S1024x39x39_2_2_1_1_0_0.lhsIdx j k (1 : Fin 3)).val = (j (1 : Fin 3)).val := rfl

private theorem lhs_axis2 (j : S1024x39x39.Idx) (k : dot_S1024x39x16_S1024x39x16_S1024x39x39_2_2_1_1_0_0.contr.Idx) :
    (dot_S1024x39x16_S1024x39x16_S1024x39x39_2_2_1_1_0_0.lhsIdx j k (2 : Fin 3)).val = (k ⟨0, by decide⟩).val := rfl

private theorem rhs_axis0 (j : S1024x39x39.Idx) (k : dot_S1024x39x16_S1024x39x16_S1024x39x39_2_2_1_1_0_0.contr.Idx) :
    (dot_S1024x39x16_S1024x39x16_S1024x39x39_2_2_1_1_0_0.rhsIdx j k (0 : Fin 3)).val = (j (0 : Fin 3)).val := rfl

private theorem rhs_axis1 (j : S1024x39x39.Idx) (k : dot_S1024x39x16_S1024x39x16_S1024x39x39_2_2_1_1_0_0.contr.Idx) :
    (dot_S1024x39x16_S1024x39x16_S1024x39x39_2_2_1_1_0_0.rhsIdx j k (1 : Fin 3)).val = (j (2 : Fin 3)).val := rfl

private theorem rhs_axis2 (j : S1024x39x39.Idx) (k : dot_S1024x39x16_S1024x39x16_S1024x39x39_2_2_1_1_0_0.contr.Idx) :
    (dot_S1024x39x16_S1024x39x16_S1024x39x39_2_2_1_1_0_0.rhsIdx j k (2 : Fin 3)).val = (k ⟨0, by decide⟩).val := rfl

/-- The batched product of an array with itself into the zero accumulator, read at (p, f, g): the inner product over the
    16 embedding coordinates of rows f and g of batch member p. -/
private theorem gram_apply (a : FVec Ideal S1024x39x16 .bf16) (p : Fin 1024) (f g : Fin 39) :
    matmul (F := Ideal) dot_S1024x39x16_S1024x39x16_S1024x39x39_2_2_1_1_0_0 none a a
        (constant (F := Ideal) S1024x39x39 .f32 0x00000000#32) (ix3 p f g)
      = ∑ d : Fin 16, a (ix3 p f d) * a (ix3 p g d) := by
  refine (Ideal.matmul_constant_zero_apply dot_S1024x39x16_S1024x39x16_S1024x39x39_2_2_1_1_0_0 none a a (ix3 p f g)).trans ?_
  rw [← Equiv.sum_comp (contrEquiv1 dot_S1024x39x16_S1024x39x16_S1024x39x39_2_2_1_1_0_0 16 rfl rfl).symm]
  refine Finset.sum_congr rfl fun d _ => ?_
  have hk := contrEquiv1_symm_val dot_S1024x39x16_S1024x39x16_S1024x39x39_2_2_1_1_0_0 16 rfl rfl d
  have hl : dot_S1024x39x16_S1024x39x16_S1024x39x39_2_2_1_1_0_0.lhsIdx (ix3 p f g)
      ((contrEquiv1 dot_S1024x39x16_S1024x39x16_S1024x39x39_2_2_1_1_0_0 16 rfl rfl).symm d) = ix3 p f d := by
    funext ax
    apply Fin.ext
    match ax with
    | ⟨0, _⟩ => exact lhs_axis0 _ _
    | ⟨1, _⟩ => exact lhs_axis1 _ _
    | ⟨2, _⟩ => exact (lhs_axis2 _ _).trans hk
  have hr : dot_S1024x39x16_S1024x39x16_S1024x39x39_2_2_1_1_0_0.rhsIdx (ix3 p f g)
      ((contrEquiv1 dot_S1024x39x16_S1024x39x16_S1024x39x39_2_2_1_1_0_0 16 rfl rfl).symm d) = ix3 p g d := by
    funext ax
    apply Fin.ext
    match ax with
    | ⟨0, _⟩ => exact rhs_axis0 _ _
    | ⟨1, _⟩ => exact rhs_axis1 _ _
    | ⟨2, _⟩ => exact (rhs_axis2 _ _).trans hk
  rw [hl, hr]

theorem pay_apply (x0 : Vec Ideal S1024x39x16 .f32) (w : Vec Ideal S39x39 .f32) (fo : Vec Ideal S1024x1 .f32) (p : Fin 1024) :
    k0_pay1 (F := Ideal) x0 w fo (ix2 p (0 : Fin 1))
      = (∑ f : Fin 39, ∑ g : Fin 39, (∑ d : Fin 16, x0 (ix3 p f d) * x0 (ix3 p g d)) * w (ix2 f g)) + fo (ix2 p (0 : Fin 1)) := by
  unfold k0_pay1
  rw [addf_apply, shapeCast_self fo, shapeCast_self x0, shapeCast_self w]
  refine congrArg (· + fo (ix2 p (0 : Fin 1))) ?_
  refine (col_apply _ _ p).trans ?_
  refine (sum_axis1_apply _ _ _ _ _ p).trans ?_
  refine Finset.sum_congr rfl fun f _ => ?_
  refine (sum_axis2_apply _ _ _ _ _ p f).trans ?_
  refine Finset.sum_congr rfl fun g _ => ?_
  rw [mulf_apply, weights_apply, gram_apply]
  rfl

end Cert.KernelIdeal.Fwfm

end
-- ==== Proof.Spec.lean ====
/-
  The factorisation-machine score with per-pair weights, as a function of the gathered arrays.

  For a batch row b the fields' embeddings are the rows E(b, f, ·), f < 39, of width 16. The second-order term is
      second b = Σ_k ⟨E(b, i_k, ·), E(b, j_k, ·)⟩ · w_k
  over the 741 pairs (i_k, j_k), i_k < j_k < 39, listed row by row of the strict upper triangle, and the score is
      G b = second b + first b + bias.
  One side computes it pair by pair. The other multiplies the whole 39 × 39 Gram matrix entrywise by a weight matrix
  that holds w_k at (i_k, j_k) and zero elsewhere and sums every entry: the entries off the pairs contribute x · 0 = 0,
  and the pairs are pairwise distinct, so the two sums agree (sum_scattered) in the extended reals, where + is
  commutative and associative and 0 annihilates — no finiteness is needed.
-/
import Idealize.ShloMosaic.PureOps.Ideal
import Idealize.ShloMosaic.Lib.ValueIdx

noncomputable section

namespace Cert.Fwfm

open Idealize.ShloMosaic Idealize.ShloMosaic.ValueIdx

/-! ## The pairs -/

/-- Walk the rows of the strict upper triangle: row i holds the 38 − i pairs (i, i+1), …, (i, 38). -/
def pairGo : Nat → Nat → Nat → Nat × Nat
  | 0, i, k => (i, i + 1 + k)
  | fuel + 1, i, k => if k < 38 - i then (i, i + 1 + k) else pairGo fuel (i + 1) (k - (38 - i))

/-- The k-th pair (i, j), i < j < 39, in row-by-row order. -/
def pairOf (k : Nat) : Nat × Nat := pairGo 39 0 k

theorem pair_lt : ∀ e : Fin 741, (pairOf e.val).1 < 39 ∧ (pairOf e.val).2 < 39 := by decide +kernel

/-- The pair's first and second field. -/
def pairI (e : Fin 741) : Fin 39 := ⟨(pairOf e.val).1, (pair_lt e).1⟩
def pairJ (e : Fin 741) : Fin 39 := ⟨(pairOf e.val).2, (pair_lt e).2⟩

/-- The position of the pair (i, j) in that order: i(77 − i)/2 pairs lie in the rows above. -/
def pairRank (i j : Nat) : Nat := i * (77 - i) / 2 + (j - i - 1)

theorem pair_rank : ∀ e : Fin 741, pairRank (pairI e).val (pairJ e).val = e.val := by decide +kernel

/-- Distinct positions name distinct pairs: the rank is a left inverse. -/
theorem pair_inj : Function.Injective fun e : Fin 741 => (pairI e, pairJ e) := by
  intro e e' h
  have h1 : pairI e = pairI e' := congrArg Prod.fst h
  have h2 : pairJ e = pairJ e' := congrArg Prod.snd h
  apply Fin.ext
  rw [← pair_rank e, ← pair_rank e', h1, h2]

/-! ## The specification -/

abbrev SE : Shape := ⟨3, ![8192, 39, 16]⟩
abbrev SO : Shape := ⟨2, ![8192, 1]⟩
abbrev SW : Shape := ⟨2, ![741, 1]⟩
abbrev S0 : Shape := ⟨0, ![]⟩

/-- The inner product of the embeddings of fields f and g of batch row b. -/
def gram (E : SE.Idx → EReal) (b : Fin 8192) (f g : Fin 39) : EReal := ∑ d : Fin 16, E (ix3 b f d) * E (ix3 b g d)

/-- The second-order term of row b: the pairs' inner products, each times its weight. -/
def second (E : SE.Idx → EReal) (fw : SW.Idx → EReal) (b : Fin 8192) : EReal :=
  ∑ k : Fin 741, gram E b (pairI k) (pairJ k) * fw (ix2 k 0)

/-- The score: second-order term, first-order term, bias. -/
def G (E : SE.Idx → EReal) (FO : SO.Idx → EReal) (fw : SW.Idx → EReal) (bias : S0.Idx → EReal) : SO.Idx → EReal :=
  fun i => second E fw (i 0) + FO i + bias ix0

/-! ## The law that joins the two arrangements -/

/-- A sum against a weight W that holds w k at the pairwise distinct places p k and zero elsewhere is the sum over k. -/
theorem sum_scattered {ι κ : Type} [Fintype ι] [DecidableEq ι] [Fintype κ] (p : κ → ι) (hp : Function.Injective p)
    (A W : ι → EReal) (w : κ → EReal) (hit : ∀ k, W (p k) = w k) (miss : ∀ x, (∀ k, p k ≠ x) → W x = 0) :
    ∑ x, A x * W x = ∑ k, A (p k) * w k := by
  classical
  refine (Finset.sum_subset (Finset.subset_univ (Finset.univ.image p)) ?_).symm.trans ?_
  · intro x _ hx
    rw [miss x (fun k hk => hx (Finset.mem_image.2 ⟨k, Finset.mem_univ _, hk⟩)), mul_zero]
  · rw [Finset.sum_image (fun a _ b _ h => hp h)]
    exact Finset.sum_congr rfl fun k _ => by rw [hit]

end Cert.Fwfm

end
-- ==== Proof.KerArray.lean ====
/-
  The kernel program's result array as one function of the argument arrays.

  Grid point t of the launch reads rows 1024 t … 1024 t + 1023 of the gathered embeddings and of the first-order column
  and the whole 39 × 39 weight matrix, and writes rows 1024 t … 1024 t + 1023 of the output: at row b the sum over all
  (f, g) of ⟨E(b, f, ·), E(b, g, ·)⟩ · W2(f, g), plus first(b). The eight blocks tile the 8192 rows, so the output array
  is that function of the three arrays at every row; the weight matrix holds the pair weights at the pairs and zero
  elsewhere, so the double sum is the sum over the pairs; the line after the launch adds the bias.
-/
import proofs.«151562_j47021301957264_1_alg».proof.Proof.Gen.KernelIdeal.Frame
import proofs.«151562_j47021301957264_1_alg».proof.Proof.KerEntry
import proofs.«151562_j47021301957264_1_alg».proof.Proof.KerPayload
import proofs.«151562_j47021301957264_1_alg».proof.Proof.Spec
import Idealize.ShloMosaic.Lib.Pipeline.Value
import Idealize.ShloMosaic.Lib.StableHlo.Run

set_option maxRecDepth 16384

noncomputable section

namespace Cert.KernelIdeal.Fwfm

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Fwfm

variable (m : (ℓ : Loc nD τ sig) → Buf (Elt Ideal) ℓ) (ρ : Dev nD → PrngReg)

/-! ## One row of the output -/

/-- The launch's output array from its three input arrays: at row b, the Gram matrix of the row's embeddings against the
    weight matrix, summed over all entries, plus the row's first-order entry. -/
def kerOut (E : FVec Ideal S8192x39x16 .f32) (FO : FVec Ideal S8192x1 .f32) (W2 : FVec Ideal S39x39 .f32) :
    FVec Ideal S8192x1 .f32 :=
  fun i => (∑ f : Fin 39, ∑ g : Fin 39, (∑ d : Fin 16, E (ix3 (i 0) f d) * E (ix3 (i 0) g d)) * W2 (ix2 f g)) + FO (ix2 (i 0) 0)

/-- What the body stores at an entry of a block whose rows are rows o, o + 1, … of the arrays is the output function at
    that row. -/
theorem point_eq (E : FVec Ideal S8192x39x16 .f32) (FO : FVec Ideal S8192x1 .f32) (W2 : FVec Ideal S39x39 .f32)
    (x0 : Vec Ideal S1024x39x16 .f32) (x1 : Vec Ideal S1024x1 .f32) (x2 : Vec Ideal S39x39 .f32)
    (o : Nat) (ho : o + 1024 ≤ 8192)
    (h0 : ∀ (p : Fin 1024) (f : Fin 39) (d : Fin 16), x0 (ix3 p f d) = E (ix3 ⟨o + p.val, by have := p.isLt; omega⟩ f d))
    (h1 : ∀ p : Fin 1024, x1 (ix2 p (0 : Fin 1)) = FO (ix2 ⟨o + p.val, by have := p.isLt; omega⟩ (0 : Fin 1)))
    (h2 : ∀ f g : Fin 39, x2 (ix2 f g) = W2 (ix2 f g))
    (y : S1024x1.Idx) (i : S8192x1.Idx) (hi : (i 0).val = o + (y 0).val) :
    k0_pay1 (F := Ideal) x0 x2 x1 y = kerOut E FO W2 i := by
  obtain ⟨p, q, rfl⟩ : ∃ (p : Fin 1024) (q : Fin 1), y = ix2 p q := ⟨y 0, y 1, eq_ix2 y⟩
  obtain rfl : q = 0 := Subsingleton.elim _ _
  have hi0 : i 0 = (⟨o + p.val, by have := p.isLt; omega⟩ : Fin 8192) := Fin.ext hi
  rw [pay_apply]
  unfold kerOut
  rw [hi0, h1 p]
  refine congrArg (· + _) ?_
  refine Finset.sum_congr rfl fun f _ => Finset.sum_congr rfl fun g _ => ?_
  rw [h2 f g]
  refine congrArg (· * _) ?_
  exact Finset.sum_congr rfl fun d _ => by rw [h0 p f d, h0 p g d]

/-! ## From the blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the embeddings, the first-order column and the output move one block of rows per
    point; the weight matrix stays. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the output function of the arrays as the launch finds them. -/
theorem flushed_eq (c : Dev nD) (t : Fin cfg0.N) :
    (dats m 0 c).flushed 3 t
      = ((cfg0.win 3).blk t).view.read (Elt Ideal) (kerOut (V m c main_v6) (V m c main_v15) (V m c main_v35)) := by
  show (cfg0.win 3).cut (grid0.coords t) ((dats m 0 c).after 3 t) = _
  rw [after0_3]
  unfold out0_3
  rw [View.canon_unit_zero hz2]
  simp only [View.ld_unit_zero (S := S1024x39x16) hz3, View.ld_unit_zero (S := S39x39) hz2, View.ld_unit_zero (S := S1024x1) hz2]
  obtain ⟨e00, e01, e02, e10, e11, e20, e21, e30, e31⟩ := idx_facts t
  have hN : cfg0.N = 8 := N_0
  have ht : t.val < 8 := by have := t.isLt; omega
  funext j
  show k0_pay1 (F := Ideal) (iblk m c 0 t) (iblk m c 2 t) (iblk m c 1 t) j
    = kerOut (V m c main_v6) (V m c main_v15) (V m c main_v35) (((cfg0.win 3).blk t).view.emb j)
  refine point_eq (V m c main_v6) (V m c main_v15) (V m c main_v35) (iblk m c 0 t) (iblk m c 1 t) (iblk m c 2 t)
    (t.val * 1024) (by omega) ?_ ?_ ?_ j (((cfg0.win 3).blk t).view.emb j) ?_
  · intro p f d
    show V m c main_v6 (((cfg0.win 0).blk t).view.emb (ix3 p f d)) = V m c main_v6 (ix3 ⟨t.val * 1024 + p.val, _⟩ f d)
    refine congrArg _ (funext fun a => Fin.ext ?_)
    match a with
    | ⟨0, _⟩ => show win0_0.index t (0 : Fin 3) * 1024 + 1 * p.val = t.val * 1024 + p.val; omega
    | ⟨1, _⟩ => show win0_0.index t (1 : Fin 3) * 39 + 1 * f.val = f.val; omega
    | ⟨2, _⟩ => show win0_0.index t (2 : Fin 3) * 16 + 1 * d.val = d.val; omega
  · intro p
    show V m c main_v15 (((cfg0.win 1).blk t).view.emb (ix2 p (0 : Fin 1))) = V m c main_v15 (ix2 ⟨t.val * 1024 + p.val, _⟩ (0 : Fin 1))
    refine congrArg _ (funext fun a => Fin.ext ?_)
    match a with
    | ⟨0, _⟩ => show win0_1.index t (0 : Fin 2) * 1024 + 1 * p.val = t.val * 1024 + p.val; omega
    | ⟨1, _⟩ => show win0_1.index t (1 : Fin 2) * 1 + 1 * 0 = 0; omega
  · intro f g
    show V m c main_v35 (((cfg0.win 2).blk t).view.emb (ix2 f g)) = V m c main_v35 (ix2 f g)
    refine congrArg _ (funext fun a => Fin.ext ?_)
    match a with
    | ⟨0, _⟩ => show win0_2.index t (0 : Fin 2) * 39 + 1 * f.val = f.val; omega
    | ⟨1, _⟩ => show win0_2.index t (1 : Fin 2) * 39 + 1 * g.val = g.val; omega
  · show win0_3.index t (0 : Fin 2) * 1024 + 1 * (j 0).val = t.val * 1024 + (j 0).val
    omega

/-- An index of the output array is in point t's block iff each coordinate is in the block's range. -/
theorem mem_blk (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v36).slice (win0_3.rect t)).set ↔ _
  rw [View.set_slice_whole, Rect.mem_set_unit]
  exact Iff.rfl

/-- Row b lies in the block of point b / 1024. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 8 := N_0
  refine ⟨⟨(i 0).val / 1024, by omega⟩, flush0_3 _, ?_⟩
  rw [mem_blk]
  obtain ⟨-, -, -, -, -, -, -, e30, e31⟩ := idx_facts ⟨(i 0).val / 1024, by omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024; omega
  | ⟨1, _⟩ =>
    show win0_3.index _ (1 : Fin 2) * 1 ≤ (i 1).val ∧ (i 1).val < win0_3.index _ (1 : Fin 2) * 1 + 1
    rw [e31]; omega

/-- The output array after the launch. -/
theorem final (c : Dev nD) :
    (dats m 0 c).arrAt 3 cfg0.N = kerOut (V m c main_v6) (V m c main_v15) (V m c main_v35) :=
  (dats m 0 c).arrAt_eq_of_cover 3 (kerOut (V m c main_v6) (V m c main_v15) (V m c main_v35)) (fun t _ => flushed_eq m c t) cover

end Cert.KernelIdeal.Fwfm

end
-- ==== Proof.PairTable.lean ====
/-
  The two programs' literal tables of pairs are the row-by-row list of the strict upper triangle: entry (e, 0) is the
  first field of pair e and entry (e, 1) the second, both below 39.

  Each table is a finite list of 1482 words, so the claim is a finite check: for every e < 741 the words at flat
  positions 2e and 2e + 1 are read off and compared with the pair that the row-by-row walk gives at position e.
  What is left is bookkeeping: in a 741 × 2 array laid out row by row the entry (e, a) sits at flat position 2e + a.
-/
import proofs.«151562_j47021301957264_1_alg».proof.KernelIdeal
import proofs.«151562_j47021301957264_1_alg».proof.ReferenceIdeal
import proofs.«151562_j47021301957264_1_alg».proof.Proof.Spec

noncomputable section

namespace Cert.Fwfm

open Idealize.ShloMosaic Idealize.ShloMosaic.ValueIdx

/-! ## The finite check, over flat positions -/

/-- In the kernel program's table the words at 2e and 2e + 1 are the two fields of pair e. -/
private theorem evalK : ∀ e : Fin 741,
    Cert.KernelIdeal.lit0t (2 * e.val) = BitVec.ofNat 32 (pairOf e.val).1
    ∧ Cert.KernelIdeal.lit0t (2 * e.val + 1) = BitVec.ofNat 32 (pairOf e.val).2 := by decide +kernel

/-- The same for the reference's table. -/
private theorem evalR : ∀ e : Fin 741,
    Cert.ReferenceIdeal.lit0t (2 * e.val) = BitVec.ofNat 32 (pairOf e.val).1
    ∧ Cert.ReferenceIdeal.lit0t (2 * e.val + 1) = BitVec.ofNat 32 (pairOf e.val).2 := by decide +kernel

/-! ## From a two-coordinate index to its flat position -/

/-- Row-major position in a 741 × 2 array: entry (e, 0) is at 2e. -/
private theorem pos0 (e : Fin 741) :
    ((⟨2, ![741, 2]⟩ : Shape).rowMajor (ix2 e (0 : Fin 2))).val = 2 * e.val := by
  rw [Shape.rowMajor_val_two]
  show e.val * 2 + 0 = 2 * e.val
  omega

/-- Row-major position in a 741 × 2 array: entry (e, 1) is at 2e + 1. -/
private theorem pos1 (e : Fin 741) :
    ((⟨2, ![741, 2]⟩ : Shape).rowMajor (ix2 e (1 : Fin 2))).val = 2 * e.val + 1 := by
  rw [Shape.rowMajor_val_two]
  show e.val * 2 + 1 = 2 * e.val + 1
  omega

/-- The kernel program's table, entry by entry. -/
theorem tblK (e : Fin 741) :
    Cert.KernelIdeal.lit0 (Cert.KernelIdeal.S741x2.rowMajor (ix2 e (0 : Fin 2))) = BitVec.ofNat 32 (pairI e).val
    ∧ Cert.KernelIdeal.lit0 (Cert.KernelIdeal.S741x2.rowMajor (ix2 e (1 : Fin 2))) = BitVec.ofNat 32 (pairJ e).val := by
  refine ⟨?_, ?_⟩
  · -- a table entry depends only on the flat position
    show Cert.KernelIdeal.lit0t ((⟨2, ![741, 2]⟩ : Shape).rowMajor (ix2 e (0 : Fin 2))).val = BitVec.ofNat 32 (pairOf e.val).1
    rw [pos0]
    exact (evalK e).1
  · show Cert.KernelIdeal.lit0t ((⟨2, ![741, 2]⟩ : Shape).rowMajor (ix2 e (1 : Fin 2))).val = BitVec.ofNat 32 (pairOf e.val).2
    rw [pos1]
    exact (evalK e).2

/-- The reference's table, entry by entry. -/
theorem tblR (e : Fin 741) :
    Cert.ReferenceIdeal.lit0 (Cert.ReferenceIdeal.S741x2.rowMajor (ix2 e (0 : Fin 2))) = BitVec.ofNat 32 (pairI e).val
    ∧ Cert.ReferenceIdeal.lit0 (Cert.ReferenceIdeal.S741x2.rowMajor (ix2 e (1 : Fin 2))) = BitVec.ofNat 32 (pairJ e).val := by
  refine ⟨?_, ?_⟩
  · show Cert.ReferenceIdeal.lit0t ((⟨2, ![741, 2]⟩ : Shape).rowMajor (ix2 e (0 : Fin 2))).val = BitVec.ofNat 32 (pairOf e.val).1
    rw [pos0]
    exact (evalR e).1
  · show Cert.ReferenceIdeal.lit0t ((⟨2, ![741, 2]⟩ : Shape).rowMajor (ix2 e (1 : Fin 2))).val = BitVec.ofNat 32 (pairOf e.val).2
    rw [pos1]
    exact (evalR e).2

end Cert.Fwfm

end
-- ==== Proof.LibScatterFold.lean ====
/-
  The host's one-index scatter as a fold in which each step rewrites at most one entry, read at an entry.

  The host's scatter with body f is a left fold over the update indices in row-major order: update index n names
  at most one entry of the operand (its result index, or none when that falls outside), and the step replaces that
  entry by f applied to it and to update n. For ANY map g from update indices to optional entries:
  an entry no update names keeps the operand's value (foldl_miss); an entry named by exactly one update k of a
  duplicate-free list ends at f (operand's value) (update k) (foldl_hit). With scatter_eq_foldl, which restates the
  host's scatter as that fold for any shapes and dimension numbers, a scatter whose result-index map is injective on
  the updates it keeps is read at an entry by computing that map alone; the fold is never evaluated.
-/
import Idealize.ShloMosaic.PureOps.ShapeOps

namespace Cert.ScatterFold

open Idealize.ShloMosaic

section Fold
variable {ι κ α : Type} [DecidableEq ι]

/-- One step of the fold: update index n rewrites the entry g n names, when it names one. -/
def stepAt (g : κ → Option ι) (f : α → α → α) (upd : κ → α) (r : ι → α) (n : κ) : ι → α :=
  match g n with
  | some i => fun i' => if i' = i then f (r i) (upd n) else r i'
  | none => r

/-- A step whose update names another entry leaves this one alone. -/
theorem stepAt_ne (g : κ → Option ι) (f : α → α → α) (upd : κ → α) (r : ι → α) (n : κ) (i' : ι)
    (h : g n ≠ some i') : stepAt g f upd r n i' = r i' := by
  unfold stepAt
  cases hg : g n with
  | none => rfl
  | some i =>
    have hne : i' ≠ i := fun e => h (by rw [hg, e])
    exact if_neg hne

/-- A step whose update names this entry combines it with the update. -/
theorem stepAt_eq (g : κ → Option ι) (f : α → α → α) (upd : κ → α) (r : ι → α) (n : κ) (i' : ι)
    (h : g n = some i') : stepAt g f upd r n i' = f (r i') (upd n) := by
  unfold stepAt
  cases hg : g n with
  | none => rw [hg] at h; cases h
  | some i =>
    have e : i = i' := Option.some.inj (hg.symm.trans h)
    subst e
    exact if_pos rfl

/-- An entry that no update of the list names is what it was before the fold. -/
theorem foldl_miss (g : κ → Option ι) (f : α → α → α) (upd : κ → α) (i' : ι) :
    ∀ (l : List κ) (x : ι → α), (∀ n ∈ l, g n ≠ some i') → l.foldl (stepAt g f upd) x i' = x i'
  | [], _, _ => rfl
  | a :: t, x, h => by
    rw [List.foldl_cons, foldl_miss g f upd i' t _ (fun n hn => h n (List.mem_cons_of_mem _ hn)),
      stepAt_ne g f upd x a i' (h a (List.mem_cons.2 (Or.inl rfl)))]

/-- An entry that exactly one update k of a duplicate-free list names ends at the body applied once. -/
theorem foldl_hit (g : κ → Option ι) (f : α → α → α) (upd : κ → α) (i' : ι) (k : κ) (hk : g k = some i') :
    ∀ (l : List κ) (x : ι → α), l.Nodup → k ∈ l → (∀ n ∈ l, g n = some i' → n = k) →
      l.foldl (stepAt g f upd) x i' = f (x i') (upd k)
  | [], _, _, hm, _ => absurd hm (by simp)
  | a :: t, x, hnd, hm, huniq => by
    rw [List.foldl_cons]
    have hnd' := List.nodup_cons.1 hnd
    by_cases hak : a = k
    · subst hak
      rw [foldl_miss g f upd i' t _ (fun n hn e => hnd'.1 (huniq n (List.mem_cons_of_mem _ hn) e ▸ hn)),
        stepAt_eq g f upd x a i' hk]
    · have hkt : k ∈ t := (List.mem_cons.1 hm).resolve_left (fun e => hak e.symm)
      rw [foldl_hit g f upd i' k hk t _ hnd'.2 hkt (fun n hn => huniq n (List.mem_cons_of_mem _ hn)),
        stepAt_ne g f upd x a i' (fun e => hak (huniq a (List.mem_cons.2 (Or.inl rfl)) e))]

/-- The host's scatter is this fold over the update indices in row-major order. -/
theorem scatter_eq_foldl {s si u : Shape} {w : Nat} (d : ScatterDims s si u) (f : α → α → α) (x : s.Idx → α)
    (idx : IVec si w) (upd : u.Idx → α) :
    Host.scatter d f x idx upd
      = (List.finRange u.numel).foldl
          (stepAt (fun n => d.resultIdx? (u.rowMajor.symm n) idx) f (fun n => upd (u.rowMajor.symm n))) x := by
  unfold Host.scatter
  refine congrArg (fun F => (List.finRange u.numel).foldl F x) (funext fun r => funext fun n => ?_)
  unfold stepAt
  beta_reduce
  cases d.resultIdx? (u.rowMajor.symm n) idx with
  | none => rfl
  | some i =>
    dsimp only <;> (funext i'; by_cases h : i' = i <;> simp [h])

end Fold

end Cert.ScatterFold
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.LibScatter2.lean ====
/-
  Reading a gather from a vector, and an accumulating scatter into a matrix addressed by PAIRS of positions, at one element.

  * `gather_vec`: elements of a vector of length N taken at an [n × 1] column of start positions; result element p is the
    vector at the start position of p, read signed and clamped into [0, N - 1].
  * `scatterAdd_pair`: updates of length n accumulated into an [N × M] matrix at an [n × 2] table of (row, column)
    positions; element (c, k) is its old value plus the sum of the updates whose pair of positions, read signed, is (c, k).
    A pair outside the matrix equals no (c, k), so its update is dropped.

  Both are generic in the sizes and in the dimension-number record; the record's fields enter as hypotheses.
-/
import proofs.«151562_j47021301957264_1_alg».proof.Proof.LibGatherScatter

namespace Cert.LibScatter2

open Idealize.ShloMosaic Idealize.ShloMosaic.ValueIdx Cert.LibGatherScatter

/-! ## The gather from a vector -/

/-- elements of a vector taken at a column of start indices: result p is the operand at the start index of p, read signed and clamped into [0, N-1]. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1) (hss : d.sliceSizes = ![1])
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  have hsk : d.sKept = [] := by
    show Shape.kept _ (d.collapsedSliceDims ++ d.operandBatchingDims) = []
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix1 p) idx (0 : Fin 1)).val = min (idx (ix2 p (0 : Fin 1))).toInt.toNat (N - 1) := by
    have hb : (0 : Fin 1) ∉ d.operandBatchingDims := by rw [hob]; exact List.not_mem_nil
    have hk : (0 : Fin 1) ∉ d.sKept := by rw [hsk]; exact List.not_mem_nil
    have hm : (0 : Fin 1) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf (0 : Fin 1) d.startIndexMap = 0
      rw [hsim]; simp
  funext a
  apply Fin.ext
  match a with
  | ⟨0, _⟩ => exact h0

/-! ## The accumulating scatter by pairs -/

/-- Updates of a matrix indexed by a table of (row, column) pairs: update e lands on element (c, k) exactly when its pair, read signed, is (c, k). -/
theorem resultIdx?_pair {N M n w : Nat} (d : ScatterDims ⟨2, ![N, M]⟩ ⟨2, ![n, 2]⟩ ⟨1, ![n]⟩)
    (huw : d.updateWindowDims = []) (hins : d.insertedWindowDims = [0, 1]) (hsd : d.scatterDimsToOperandDims = [0, 1]) (hivd : d.indexVectorDim = 1)
    (idx : IVec ⟨2, ![n, 2]⟩ w) (e : Fin n) (c : Fin N) (k : Fin M) :
    d.resultIdx? (ix1 e) idx = some (ix2 c k)
      ↔ (idx (ix2 e (0 : Fin 2))).toInt = (c.val : ℤ) ∧ (idx (ix2 e (1 : Fin 2))).toInt = (k.val : ℤ) := by
  rw [resultIdx?_eq_some_iff]
  have hsk : d.sKept = [] := by show Shape.kept _ d.insertedWindowDims = []; rw [hins]; rfl
  have hm0 : (0 : Fin 2) ∈ d.scatterDimsToOperandDims := by rw [hsd]; simp
  have hm1 : (1 : Fin 2) ∈ d.scatterDimsToOperandDims := by rw [hsd]; simp
  have hk0 : (0 : Fin 2) ∉ d.sKept := by rw [hsk]; exact List.not_mem_nil
  have hk1 : (1 : Fin 2) ∉ d.sKept := by rw [hsk]; exact List.not_mem_nil
  have ee : ∀ X : Fin 1, ((ix1 e : (⟨1, ![n]⟩ : Shape).Idx) X).val = e.val := fun X => by
    have hX : X = 0 := Subsingleton.elim _ _
    subst hX; rfl
  have hst0 : d.start (ix1 e) idx (0 : Fin 2) = (idx (ix2 e (0 : Fin 2))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      exact ee _
    | ⟨1, _⟩ =>
      unfold ScatterDims.siIdx
      rw [dif_pos (by rw [hivd])]
      apply Fin.ext
      show List.idxOf (0 : Fin 2) d.scatterDimsToOperandDims = 0
      rw [hsd]; simp
  have hst1 : d.start (ix1 e) idx (1 : Fin 2) = (idx (ix2 e (1 : Fin 2))).toInt := by
    unfold ScatterDims.start
    rw [dif_pos hm1]
    congr 2
    funext b
    match b with
    | ⟨0, _⟩ =>
      unfold ScatterDims.siIdx
      rw [dif_neg (by rw [hivd]; simp)]
      unfold ScatterDims.siCoord
      apply Fin.ext
      simp only [Fin.val_cast]
      exact ee _
    | ⟨1, _⟩ =>
      unfold ScatterDims.siIdx
      rw [dif_pos (by rw [hivd])]
      apply Fin.ext
      show List.idxOf (1 : Fin 2) d.scatterDimsToOperandDims = 1
      rw [hsd]; rfl
  have hw0 : d.window (ix1 e) (0 : Fin 2) = 0 := by
    unfold ScatterDims.window; rw [dif_neg hk0]
  have hw1 : d.window (ix1 e) (1 : Fin 2) = 0 := by
    unfold ScatterDims.window; rw [dif_neg hk1]
  constructor
  · intro h
    have h0 : d.start (ix1 e) idx 0 + (d.window (ix1 e) 0 : ℤ) = (c.val : ℤ) := h 0
    have h1 : d.start (ix1 e) idx 1 + (d.window (ix1 e) 1 : ℤ) = (k.val : ℤ) := h 1
    rw [hst0, hw0] at h0
    rw [hst1, hw1] at h1
    exact ⟨by simpa using h0, by simpa using h1⟩
  · intro h a
    match a with
    | ⟨0, _⟩ =>
      show d.start (ix1 e) idx 0 + (d.window (ix1 e) 0 : ℤ) = (c.val : ℤ)
      rw [hst0, hw0, h.1]; simp
    | ⟨1, _⟩ =>
      show d.start (ix1 e) idx 1 + (d.window (ix1 e) 1 : ℤ) = (k.val : ℤ)
      rw [hst1, hw1, h.2]; simp

/-- the accumulating scatter into a matrix by pairs: element (c, k) is what was there plus the sum of the updates whose pair of start indices, read signed, is (c, k). -/
theorem scatterAdd_pair {N M n w : Nat} (d : ScatterDims ⟨2, ![N, M]⟩ ⟨2, ![n, 2]⟩ ⟨1, ![n]⟩)
    (huw : d.updateWindowDims = []) (hins : d.insertedWindowDims = [0, 1]) (hsd : d.scatterDimsToOperandDims = [0, 1]) (hivd : d.indexVectorDim = 1)
    (x : FVec Ideal ⟨2, ![N, M]⟩ .f32) (idx : IVec ⟨2, ![n, 2]⟩ w) (u : FVec Ideal ⟨1, ![n]⟩ .f32) (c : Fin N) (k : Fin M) :
    Host.scatterAdd d x idx u (ix2 c k)
      = x (ix2 c k) + ∑ e ∈ Finset.univ.filter (fun e : Fin n =>
          (idx (ix2 e (0 : Fin 2))).toInt = (c.val : ℤ) ∧ (idx (ix2 e (1 : Fin 2))).toInt = (k.val : ℤ)), u (ix1 e) := by
  show Ideal.hostScatterAdd d x idx u (ix2 c k) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_pair d huw hins hsd hivd idx _ c k).1 h2⟩
  · intro e he
    exact Finset.mem_filter.2 ⟨Finset.mem_univ _, (resultIdx?_pair d huw hins hsd hivd idx e c k).2 (Finset.mem_filter.1 he).2⟩
  · intro jj _; exact (eq_ix1 jj).symm
  · intro e _; rfl
  · intro jj _; exact congrArg u (eq_ix1 jj)

end Cert.LibScatter2
-- ==== Proof.KerScatter.lean ====
/-
  The pair-weight matrix against any 39 × 39 array: summing A · W2 over every entry is summing A at the pairs times the
  pair weights, because W2 holds weight k at the pairwise distinct entries (i_k, j_k) and zero elsewhere.
-/
import proofs.«151562_j47021301957264_1_alg».proof.Proof.Gen.KernelIdeal
import proofs.«151562_j47021301957264_1_alg».proof.Proof.KerTerms
import proofs.«151562_j47021301957264_1_alg».proof.Proof.PairTable
import proofs.«151562_j47021301957264_1_alg».proof.Proof.LibScatterFold
import proofs.«151562_j47021301957264_1_alg».proof.Proof.LibScatter2
import Idealize.ShloMosaic.Lib.ValueLayout
import Idealize.ShloMosaic.Lib.DynamicIndex
import Idealize.ShloMosaic.Lib.Pipeline.Value
import Idealize.ShloMosaic.PureOps.Ideal.Laws

noncomputable section

namespace Cert.KernelIdeal.Fwfm

open Idealize.ShloMosaic Idealize.ShloMosaic.ValueIdx Cert.KernelIdeal Cert.Fwfm
open Facts₀ Facts

/-- A column of the table read as a vector: where the entry is not negative as a signed word, the entry itself. -/
private theorem normCol_apply (col : IVec S741x1 32) (e : Fin 741) (h : 0 ≤ (col (ix2 e (0 : Fin 1))).toInt) :
    normCol col (ix1 e) = col (ix2 e (0 : Fin 1)) := by
  have hc : shapeCast S741 col shapeCasts_S741x1_S741 (ix1 e) = col (ix2 e (0 : Fin 1)) :=
    shapeCast_apply col _ _ _ (by
      rw [Shape.rowMajor_val_two, Shape.rowMajor_val_one]
      show e.val * 1 + 0 = e.val
      omega)
  unfold normCol
  exact (select_slt_zero_of_nonneg (shapeCast S741 col shapeCasts_S741x1_S741) _ _ (ix1 e) (by rw [hc]; exact h)).trans hc

/-- The table of scatter positions, entry by entry: row e holds the pair e. -/
private theorem pairIdx_apply (e : Fin 741) :
    pairIdx (ix2 e (0 : Fin 2)) = BitVec.ofNat 32 (pairI e).val
    ∧ pairIdx (ix2 e (1 : Fin 2)) = BitVec.ofNat 32 (pairJ e).val := by
  have hI : (pairI e).val < 2 ^ 31 := by have := (pairI e).isLt; omega
  have hJ : (pairJ e).val < 2 ^ 31 := by have := (pairJ e).isLt; omega
  have t0 : extractStridedSlice S741x1 ![0, 0] pairTable slices_S741x2_S741x1_0_0 (ix2 e (0 : Fin 1))
      = BitVec.ofNat 32 (pairI e).val :=
    (slice2_axis1_apply 0 pairTable slices_S741x2_S741x1_0_0 e (0 : Fin 1) (0 : Fin 2) rfl).trans (tblK e).1
  have t1 : extractStridedSlice S741x1 ![0, 1] pairTable slices_S741x2_S741x1_0_1 (ix2 e (0 : Fin 1))
      = BitVec.ofNat 32 (pairJ e).val :=
    (slice2_axis1_apply 1 pairTable slices_S741x2_S741x1_0_1 e (0 : Fin 1) (1 : Fin 2) rfl).trans (tblK e).2
  constructor
  · unfold pairIdx
    refine (concatenate_pair_apply_left (s₁ := S741x1) (s₂ := S741x1) (1 : Fin 2) _ _ _ (ix2 e (0 : Fin 2)) rfl (ix2 e (0 : Fin 1))
      (fun b => by match b with | ⟨0, _⟩ => rfl | ⟨1, _⟩ => rfl)).trans ?_
    refine (broadcastInDim_apply _ _ _ (ix2 e (0 : Fin 1)) (ix1 e) (fun a => by match a with | ⟨0, _⟩ => rfl)).trans ?_
    rw [normCol_apply _ e (by rw [t0, toInt_ofNat_of_lt hI]; omega)]
    exact t0
  · unfold pairIdx
    refine (concatenate_pair_apply_right (s₁ := S741x1) (s₂ := S741x1) (1 : Fin 2) _ _ _ (ix2 e (1 : Fin 2)) rfl rfl (ix2 e (0 : Fin 1))
      (fun b hb => by match b with | ⟨0, _⟩ => rfl | ⟨1, _⟩ => exact absurd rfl hb) rfl).trans ?_
    refine (broadcastInDim_apply _ _ _ (ix2 e (0 : Fin 1)) (ix1 e) (fun a => by match a with | ⟨0, _⟩ => rfl)).trans ?_
    rw [normCol_apply _ e (by rw [t1, toInt_ofNat_of_lt hJ]; omega)]
    exact t1

/-- The update of row e lands on entry (c, k) exactly when the pair e is (c, k). -/
private theorem resultIdx_iff (e : Fin 741) (c k : Fin 39) :
    scatter_S39x39_S741x2_S741_n_01_01_1.resultIdx? (ix1 e) pairIdx = some (ix2 c k)
      ↔ pairI e = c ∧ pairJ e = k := by
  have hI : (pairI e).val < 2 ^ 31 := by have := (pairI e).isLt; omega
  have hJ : (pairJ e).val < 2 ^ 31 := by have := (pairJ e).isLt; omega
  rw [Cert.LibScatter2.resultIdx?_pair _ rfl rfl rfl rfl, (pairIdx_apply e).1, (pairIdx_apply e).2,
    toInt_ofNat_of_lt hI, toInt_ofNat_of_lt hJ]
  constructor
  · rintro ⟨h1, h2⟩
    exact ⟨Fin.ext (by exact_mod_cast h1), Fin.ext (by exact_mod_cast h2)⟩
  · rintro ⟨rfl, rfl⟩
    exact ⟨rfl, rfl⟩

theorem w2_sum (a2 : FVec Ideal S741x1 .f32) (A : S39x39.Idx → EReal) :
    ∑ x : S39x39.Idx, A x * w2Of (F := Ideal) a2 x = ∑ k : Fin 741, A (ix2 (pairI k) (pairJ k)) * a2 (ix2 k (0 : Fin 1)) := by
  -- two pairs at one entry are one pair
  have hinj : Function.Injective (fun k : Fin 741 => (ix2 (pairI k) (pairJ k) : S39x39.Idx)) := by
    intro k k' h
    have h' : (ix2 (pairI k) (pairJ k) : S39x39.Idx) = ix2 (pairI k') (pairJ k') := h
    have h0 : pairI k = pairI k' := congrFun h' 0
    have h1 : pairJ k = pairJ k' := congrFun h' 1
    exact pair_inj (by show (pairI k, pairJ k) = (pairI k', pairJ k'); rw [h0, h1])
  -- the entry of pair k holds weight k: update k is the only one that names it
  have hit : ∀ k : Fin 741, w2Of (F := Ideal) a2 (ix2 (pairI k) (pairJ k)) = a2 (ix2 k (0 : Fin 1)) := by
    intro k
    unfold w2Of
    rw [Cert.ScatterFold.scatter_eq_foldl]
    refine (Cert.ScatterFold.foldl_hit _ _ _ _ (S741.rowMajor (ix1 k)) ?_ _ _ (List.nodup_finRange _)
      (List.mem_finRange _) ?_).trans ?_
    · show scatter_S39x39_S741x2_S741_n_01_01_1.resultIdx? (S741.rowMajor.symm (S741.rowMajor (ix1 k))) pairIdx = some _
      rw [Equiv.symm_apply_apply]
      exact (resultIdx_iff k _ _).2 ⟨rfl, rfl⟩
    · intro n _ hn
      obtain ⟨e, he⟩ : ∃ e : Fin 741, S741.rowMajor.symm n = ix1 e := ⟨_, eq_ix1 _⟩
      have hn' : scatter_S39x39_S741x2_S741_n_01_01_1.resultIdx? (S741.rowMajor.symm n) pairIdx
          = some (ix2 (pairI k) (pairJ k)) := hn
      rw [he] at hn'
      have h2 := (resultIdx_iff e _ _).1 hn'
      have hek : e = k := pair_inj (by show (pairI e, pairJ e) = (pairI k, pairJ k); rw [h2.1, h2.2])
      rw [← hek, ← he, Equiv.apply_symm_apply]
    · show shapeCast S741 a2 shapeCasts_S741x1_S741 (S741.rowMajor.symm (S741.rowMajor (ix1 k))) = _
      rw [Equiv.symm_apply_apply]
      exact shapeCast_apply a2 _ _ _ (by
        rw [Shape.rowMajor_val_two, Shape.rowMajor_val_one]
        show k.val * 1 + 0 = k.val
        omega)
  -- an entry no pair names keeps the zero it started with
  have miss : ∀ x : S39x39.Idx, (∀ k : Fin 741, (ix2 (pairI k) (pairJ k) : S39x39.Idx) ≠ x) →
      w2Of (F := Ideal) a2 x = 0 := by
    intro x hx
    obtain ⟨c, k', rfl⟩ : ∃ c k', x = ix2 c k' := ⟨x 0, x 1, eq_ix2 x⟩
    unfold w2Of
    rw [Cert.ScatterFold.scatter_eq_foldl]
    refine (Cert.ScatterFold.foldl_miss _ _ _ _ _ _ (fun n _ hn => ?_)).trans ?_
    · obtain ⟨e, he⟩ : ∃ e : Fin 741, S741.rowMajor.symm n = ix1 e := ⟨_, eq_ix1 _⟩
      have hn' : scatter_S39x39_S741x2_S741_n_01_01_1.resultIdx? (S741.rowMajor.symm n) pairIdx
          = some (ix2 c k') := hn
      rw [he] at hn'
      have h2 := (resultIdx_iff e _ _).1 hn'
      exact hx e (by rw [h2.1, h2.2])
    · show Ideal.ofBits .f32 0x00000000#32 = 0
      exact Ideal.ofBits_zero_f32
  exact Cert.Fwfm.sum_scattered (fun k : Fin 741 => (ix2 (pairI k) (pairJ k) : S39x39.Idx)) hinj A
    (w2Of (F := Ideal) a2) (fun k => a2 (ix2 k (0 : Fin 1))) hit miss

end Cert.KernelIdeal.Fwfm

end
-- ==== Proof.KerRun.lean ====
/-
  The kernel program's run, read: the result array is the specification of the argument arrays.

  The launch's output is, at row b, the Gram matrix against the pair-weight matrix summed over all 39 × 39 entries plus
  first(b); against that matrix the double sum is the sum over the 741 pairs; the one line after the launch adds the
  bias to every row.
-/
import proofs.«151562_j47021301957264_1_alg».proof.Proof.KerArray
import proofs.«151562_j47021301957264_1_alg».proof.Proof.KerScatter

set_option maxRecDepth 16384

noncomputable section

namespace Cert.KernelIdeal.Fwfm

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Fwfm

variable (m : (ℓ : Loc nD τ sig) → Buf (Elt Ideal) ℓ) (ρ : Dev nD → PrngReg)

/-- Against the pair-weight matrix the sum over all entries of the Gram matrix is the second-order term. -/
theorem kerOut_terms (a0 : IVec S8192x39 32) (a1 : FVec Ideal S1000000x16 .f32) (a2 : FVec Ideal S741x1 .f32)
    (a3 : FVec Ideal S1000000 .f32) (i : S8192x1.Idx) :
    kerOut (embOf (F := Ideal) a0 a1) (foOf (F := Ideal) a0 a3) (w2Of (F := Ideal) a2) i
      = second (embOf (F := Ideal) a0 a1) a2 (i 0) + foOf (F := Ideal) a0 a3 i := by
  have h1 : (i 1).val < 1 := (i 1).isLt
  have hi : (ix2 (i 0) (0 : Fin 1) : S8192x1.Idx) = i := by
    refine ((eq_ix2 i).trans ?_).symm
    exact congrArg (ix2 (i 0)) (Fin.ext (by show (i 1).val = 0; omega))
  have hs := w2_sum a2 (fun x => gram (embOf (F := Ideal) a0 a1) (i 0) (x 0) (x 1))
  rw [sum_idx2] at hs
  unfold kerOut
  rw [hi]
  exact congrArg (· + foOf (F := Ideal) a0 a3 i) hs

/-- The line after the launch: the output array plus the bias on every row. -/
theorem tail_eq (c : Dev nD) :
    Pipeline.afterTail₀ cfgs (dats m) 0 (V0 m) [hostOps1] c main_v38
      = addf (kerOut (V m c main_v6) (V m c main_v15) (V m c main_v35))
          (broadcastInDim S8192x1 ![] bcast_S_S8192x1 (m ((c.tc : Thread nD τ).loc main_arg4))) := by
  unfold Pipeline.afterTail₀
  show StableHlo.after hostOps1 _ (Proc.devRef .tc main_v38) = _
  after_results
  have e3 : Pipeline.withArrays (cfgs 0).spec c (V0 m c) (fun w => (dats m 0 c).arrAt w (cfgs 0).N) (Proc.devRef .tc main_v36)
      = (dats m 0 c).arrAt 3 cfg0.N :=
    Pipeline.withArrays_arr spec0 launch0.win.arr_inj c _ _ 3
  have e4 : Pipeline.withArrays (cfgs 0).spec c (V0 m c) (fun w => (dats m 0 c).arrAt w (cfgs 0).N) (Proc.devRef .tc main_arg4)
      = V0 m c (Proc.devRef .tc main_arg4) :=
    Pipeline.withArrays_of_ne spec0 c _ _ main_arg4 (by decide)
  exact congrArg₂ addf (e3.trans (final m c))
    (congrArg (broadcastInDim S8192x1 ![] bcast_S_S8192x1) (e4.trans (V_main_arg4 m c)))

/-- The result array is the specification of the argument arrays. -/
theorem out_eq (c : Dev nD) :
    Pipeline.afterTail₀ cfgs (dats m) 0 (V0 m) [hostOps1] c main_v38
      = Cert.Fwfm.G (embOf (F := Ideal) (m ((c.tc : Thread nD τ).loc main_arg0)) (m ((c.tc : Thread nD τ).loc main_arg1)))
          (foOf (F := Ideal) (m ((c.tc : Thread nD τ).loc main_arg0)) (m ((c.tc : Thread nD τ).loc main_arg3)))
          (m ((c.tc : Thread nD τ).loc main_arg2)) (m ((c.tc : Thread nD τ).loc main_arg4)) := by
  rw [tail_eq, V_emb, V_fo, V_w2]
  funext i
  have hb : broadcastInDim S8192x1 ![] bcast_S_S8192x1 (m ((c.tc : Thread nD τ).loc main_arg4)) i
      = m ((c.tc : Thread nD τ).loc main_arg4) ix0 := by
    unfold broadcastInDim
    exact congrArg _ (funext fun a => a.elim0)
  show kerOut _ _ _ i + broadcastInDim S8192x1 ![] bcast_S_S8192x1 (m ((c.tc : Thread nD τ).loc main_arg4)) i = _
  rw [hb, kerOut_terms]
  rfl

/-- Every weakly fair execution of the kernel program terminates with the result array at the specification of the
    argument arrays and the arguments unchanged. -/
theorem run : θ_run defs (onTc (τ := τ) (main (F := Ideal))) ⟨m, fun _ => 0, ρ⟩ fun r => ∀ c : Dev nD,
      r.2.mem ((c.tc : Thread nD τ).loc main_v38)
        = Cert.Fwfm.G (embOf (F := Ideal) (m ((c.tc : Thread nD τ).loc main_arg0)) (m ((c.tc : Thread nD τ).loc main_arg1)))
            (foOf (F := Ideal) (m ((c.tc : Thread nD τ).loc main_arg0)) (m ((c.tc : Thread nD τ).loc main_arg3)))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v38 (Pipeline.mem_restRefs_of main_v38 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Fwfm

end
-- ==== Proof.RefTerms.lean ====
/-
  The reference's computation named as functions of the argument arrays.

  normIdx, embOf and foOf are the same host computations the kernel's program runs ahead of its launch. fieldOf takes,
  for every batch row and every pair, the embedding row of one of the pair's two fields; refTerm multiplies the two
  entrywise, sums each product over the 16 coordinates, contracts the 741 sums with the pair weights, and adds the bias
  and the first-order column.
-/
import proofs.«151562_j47021301957264_1_alg».proof.ReferenceIdeal

noncomputable section

namespace Cert.ReferenceIdeal.Fwfm

open Idealize.ShloMosaic Cert.ReferenceIdeal

variable {F : FTy → Type} [FloatOps F] [Facts]
open Facts₀ Facts

/-- Positions into the tables of a million rows, a negative one counted from the end. -/
def normIdx (a0 : IVec S8192x39 32) : IVec S8192x39x1 32 :=
  broadcastInDim S8192x39x1 ![0, 1] bcast_S8192x39_S8192x39x1_0_1
    (select (cmpi .slt a0 (broadcastInDim S8192x39 ![] bcast_S_S8192x39 (constantI S_ 32 0#32)))
      (addi a0 (broadcastInDim S8192x39 ![] bcast_S_S8192x39 (constantI S_ 32 1000000#32))) a0)

/-- Each field's embedding row. -/
def embOf (a0 : IVec S8192x39 32) (a1 : FVec F S1000000x16 .f32) : FVec F S8192x39x16 .f32 :=
  Host.gather gather_S1000000x16_S8192x39x1_S8192x39x16_2_0_n_n_0_2_116 a1 (normIdx a0)

/-- The first-order term: each row's sum of gathered linear weights, as a column. -/
def foOf (a0 : IVec S8192x39 32) (a3 : FVec F S1000000 .f32) : FVec F S8192x1 .f32 :=
  broadcastInDim S8192x1 ![0] bcast_S8192_S8192x1_0
    (Host.reduceAdd (Host.gather gather_S1000000_S8192x39x1_S8192x39_n_0_n_n_0_2_1 a3 (normIdx a0))
      (constant S_ .f32 0x00000000#32) reducesTo_S8192x39_S8192_d1 h_S_)

/-- The literal table of pairs. -/
def pairTable : IVec S741x2 32 := fun i => lit0 (S741x2.rowMajor i)

/-- One column of a [741, 1] slice of the table as start positions [741, 1], a negative entry counted from 39. -/
def normCol (col : IVec S741x1 32) : IVec S741x1 32 :=
  broadcastInDim S741x1 ![0] bcast_S741_S741x1_0
    (select (cmpi .slt (shapeCast S741 col shapeCasts_S741x1_S741) (broadcastInDim S741 ![] bcast_S_S741 (constantI S_ 32 0#32)))
      (addi (shapeCast S741 col shapeCasts_S741x1_S741) (broadcastInDim S741 ![] bcast_S_S741 (constantI S_ 32 39#32)))
      (shapeCast S741 col shapeCasts_S741x1_S741))

/-- For every batch row and pair, the embedding row of the pair's first field. -/
def fieldI (E : FVec F S8192x39x16 .f32) : FVec F S8192x741x16 .f32 :=
  Host.gather gather_S8192x39x16_S741x1_S8192x741x16_02_1_n_n_1_1_8192116 E
    (normCol (extractStridedSlice S741x1 ![0, 0] pairTable slices_S741x2_S741x1_0_0))

/-- For every batch row and pair, the embedding row of the pair's second field. -/
def fieldJ (E : FVec F S8192x39x16 .f32) : FVec F S8192x741x16 .f32 :=
  Host.gather gather_S8192x39x16_S741x1_S8192x741x16_02_1_n_n_1_1_8192116 E
    (normCol (extractStridedSlice S741x1 ![0, 1] pairTable slices_S741x2_S741x1_0_1))

/-- The score from the gathered arrays: (1 · bias + first) + (pairs' inner products) · weights. -/
def scoreOf (E : FVec F S8192x39x16 .f32) (FO : FVec F S8192x1 .f32) (a2 : FVec F S741x1 .f32) (a4 : FVec F S_ .f32) :
    FVec F S8192x1 .f32 :=
  addf
    (addf (mulf (broadcastInDim S8192x1 ![] bcast_S_S8192x1 (constant S_ .f32 0x3F800000#32)) (broadcastInDim S8192x1 ![] bcast_S_S8192x1 a4)) FO)
    (Host.dotGeneral dot_S8192x741_S741x1_S8192x1_1_0_0_1_n_n none
      (Host.reduceAdd (mulf (fieldI E) (fieldJ E)) (constant S_ .f32 0x00000000#32) reducesTo_S8192x741x16_S8192x741_d2 h_S_) a2)

/-- The reference's result as a function of its five argument arrays. -/
def refTerm (a0 : IVec S8192x39 32) (a1 : FVec F S1000000x16 .f32) (a2 : FVec F S741x1 .f32) (a3 : FVec F S1000000 .f32)
    (a4 : FVec F S_ .f32) : FVec F S8192x1 .f32 :=
  scoreOf (embOf a0 a1) (foOf a0 a3) a2 a4

end Cert.ReferenceIdeal.Fwfm

end
-- ==== Proof.RefRun.lean ====
/-
  The reference's @main as the list of its host operations, and its run: every weakly fair execution terminates with
  the result array at refTerm of the argument arrays and the arguments unchanged.
-/
import proofs.«151562_j47021301957264_1_alg».proof.Proof.Gen.ReferenceIdeal
import proofs.«151562_j47021301957264_1_alg».proof.Proof.RefTerms
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 54 operations, in order: the pair table and the two index normalisations, the three gathers, the products
    and their sums, the contraction with the pair weights, and the two final additions. -/
abbrev ops : List (HloOp τ sig (Elt F)) :=
  [ nullary main_c (fun i => lit0 (S741x2.rowMajor i)),
    nullary main_c_0 (constantI S_ 32 0#32),
    unary main_c_0 main_v0 (broadcastInDim S8192x39 ![] bcast_S_S8192x39 : (⟨S_, .i32⟩ : BufTy).Contents (Elt F) → (⟨S8192x39, .i32⟩ : BufTy).Contents (Elt F)),
    binary main_arg0 main_v0 main_v1 (cmpi .slt : (⟨S8192x39, .i32⟩ : BufTy).Contents (Elt F) → (⟨S8192x39, .i32⟩ : BufTy).Contents (Elt F) → (⟨S8192x39, .i1⟩ : BufTy).Contents (Elt F)),
    nullary main_c_1 (constantI S_ 32 1000000#32),
    unary main_c_1 main_v2 (broadcastInDim S8192x39 ![] bcast_S_S8192x39 : (⟨S_, .i32⟩ : BufTy).Contents (Elt F) → (⟨S8192x39, .i32⟩ : BufTy).Contents (Elt F)),
    binary main_arg0 main_v2 main_v3 (addi : (⟨S8192x39, .i32⟩ : BufTy).Contents (Elt F) → (⟨S8192x39, .i32⟩ : BufTy).Contents (Elt F) → (⟨S8192x39, .i32⟩ : BufTy).Contents (Elt F)),
    ternary main_v1 main_v3 main_arg0 main_v4 (select : (⟨S8192x39, .i1⟩ : BufTy).Contents (Elt F) → (⟨S8192x39, .i32⟩ : BufTy).Contents (Elt F) → (⟨S8192x39, .i32⟩ : BufTy).Contents (Elt F) → (⟨S8192x39, .i32⟩ : BufTy).Contents (Elt F)),
    unary main_v4 main_v5 (broadcastInDim S8192x39x1 ![0, 1] bcast_S8192x39_S8192x39x1_0_1 : (⟨S8192x39, .i32⟩ : BufTy).Contents (Elt F) → (⟨S8192x39x1, .i32⟩ : BufTy).Contents (Elt F)),
    binary main_arg3 main_v5 main_v6 ((fun x i => Host.gather gather_S1000000_S8192x39x1_S8192x39_n_0_n_n_0_2_1 x i) : (⟨S1000000, .f32⟩ : BufTy).Contents (Elt F) → (⟨S8192x39x1, .i32⟩ : BufTy).Contents (Elt F) → (⟨S8192x39, .f32⟩ : BufTy).Contents (Elt F)),
    nullary main_cst (constant S_ .f32 0x00000000#32),
    binary main_v6 main_cst main_v7 ((fun x v => Host.reduceAdd x v reducesTo_S8192x39_S8192_d1 h_S_) : (⟨S8192x39, .f32⟩ : BufTy).Contents (Elt F) → (⟨S_, .f32⟩ : BufTy).Contents (Elt F) → (⟨S8192, .f32⟩ : BufTy).Contents (Elt F)),
    unary main_v7 main_v8 (broadcastInDim S8192x1 ![0] bcast_S8192_S8192x1_0 : (⟨S8192, .f32⟩ : BufTy).Contents (Elt F) → (⟨S8192x1, .f32⟩ : BufTy).Contents (Elt F)),
    nullary main_cst_2 (constant S_ .f32 0x3F800000#32),
    unary main_cst_2 main_v9 (broadcastInDim S8192x1 ![] bcast_S_S8192x1 : (⟨S_, .f32⟩ : BufTy).Contents (Elt F) → (⟨S8192x1, .f32⟩ : BufTy).Contents (Elt F)),
    unary main_arg4 main_v10 (broadcastInDim S8192x1 ![] bcast_S_S8192x1 : (⟨S_, .f32⟩ : BufTy).Contents (Elt F) → (⟨S8192x1, .f32⟩ : BufTy).Contents (Elt F)),
    binary main_v9 main_v10 main_v11 (mulf : (⟨S8192x1, .f32⟩ : BufTy).Contents (Elt F) → (⟨S8192x1, .f32⟩ : BufTy).Contents (Elt F) → (⟨S8192x1, .f32⟩ : BufTy).Contents (Elt F)),
    nullary main_c_3 (constantI S_ 32 0#32),
    unary main_c_3 main_v12 (broadcastInDim S8192x39 ![] bcast_S_S8192x39 : (⟨S_, .i32⟩ : BufTy).Contents (Elt F) → (⟨S8192x39, .i32⟩ : BufTy).Contents (Elt F)),
    binary main_arg0 main_v12 main_v13 (cmpi .slt : (⟨S8192x39, .i32⟩ : BufTy).Contents (Elt F) → (⟨S8192x39, .i32⟩ : BufTy).Contents (Elt F) → (⟨S8192x39, .i1⟩ : BufTy).Contents (Elt F)),
    nullary main_c_4 (constantI S_ 32 1000000#32),
    unary main_c_4 main_v14 (broadcastInDim S8192x39 ![] bcast_S_S8192x39 : (⟨S_, .i32⟩ : BufTy).Contents (Elt F) → (⟨S8192x39, .i32⟩ : BufTy).Contents (Elt F)),
    binary main_arg0 main_v14 main_v15 (addi : (⟨S8192x39, .i32⟩ : BufTy).Contents (Elt F) → (⟨S8192x39, .i32⟩ : BufTy).Contents (Elt F) → (⟨S8192x39, .i32⟩ : BufTy).Contents (Elt F)),
    ternary main_v13 main_v15 main_arg0 main_v16 (select : (⟨S8192x39, .i1⟩ : BufTy).Contents (Elt F) → (⟨S8192x39, .i32⟩ : BufTy).Contents (Elt F) → (⟨S8192x39, .i32⟩ : BufTy).Contents (Elt F) → (⟨S8192x39, .i32⟩ : BufTy).Contents (Elt F)),
    unary main_v16 main_v17 (broadcastInDim S8192x39x1 ![0, 1] bcast_S8192x39_S8192x39x1_0_1 : (⟨S8192x39, .i32⟩ : BufTy).Contents (Elt F) → (⟨S8192x39x1, .i32⟩ : BufTy).Contents (Elt F)),
    binary main_arg1 main_v17 main_v18 ((fun x i => Host.gather gather_S1000000x16_S8192x39x1_S8192x39x16_2_0_n_n_0_2_116 x i) : (⟨S1000000x16, .f32⟩ : BufTy).Contents (Elt F) → (⟨S8192x39x1, .i32⟩ : BufTy).Contents (Elt F) → (⟨S8192x39x16, .f32⟩ : BufTy).Contents (Elt F)),
    unary main_c main_v19 ((extractStridedSlice S741x1 ![0, 0] · slices_S741x2_S741x1_0_0) : (⟨S741x2, .i32⟩ : BufTy).Contents (Elt F) → (⟨S741x1, .i32⟩ : BufTy).Contents (Elt F)),
    reshape main_v19 main_v20 rfl shapeCasts_S741x1_S741,
    nullary main_c_5 (constantI S_ 32 0#32),
    unary main_c_5 main_v21 (broadcastInDim S741 ![] bcast_S_S741 : (⟨S_, .i32⟩ : BufTy).Contents (Elt F) → (⟨S741, .i32⟩ : BufTy).Contents (Elt F)),
    binary main_v20 main_v21 main_v22 (cmpi .slt : (⟨S741, .i32⟩ : BufTy).Contents (Elt F) → (⟨S741, .i32⟩ : BufTy).Contents (Elt F) → (⟨S741, .i1⟩ : BufTy).Contents (Elt F)),
    nullary main_c_6 (constantI S_ 32 39#32),
    unary main_c_6 main_v23 (broadcastInDim S741 ![] bcast_S_S741 : (⟨S_, .i32⟩ : BufTy).Contents (Elt F) → (⟨S741, .i32⟩ : BufTy).Contents (Elt F)),
    binary main_v20 main_v23 main_v24 (addi : (⟨S741, .i32⟩ : BufTy).Contents (Elt F) → (⟨S741, .i32⟩ : BufTy).Contents (Elt F) → (⟨S741, .i32⟩ : BufTy).Contents (Elt F)),
    ternary main_v22 main_v24 main_v20 main_v25 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v25 main_v26 (broadcastInDim S741x1 ![0] bcast_S741_S741x1_0 : (⟨S741, .i32⟩ : BufTy).Contents (Elt F) → (⟨S741x1, .i32⟩ : BufTy).Contents (Elt F)),
    binary main_v18 main_v26 main_v27 ((fun x i => Host.gather gather_S8192x39x16_S741x1_S8192x741x16_02_1_n_n_1_1_8192116 x i) : (⟨S8192x39x16, .f32⟩ : BufTy).Contents (Elt F) → (⟨S741x1, .i32⟩ : BufTy).Contents (Elt F) → (⟨S8192x741x16, .f32⟩ : BufTy).Contents (Elt F)),
    unary main_c main_v28 ((extractStridedSlice S741x1 ![0, 1] · slices_S741x2_S741x1_0_1) : (⟨S741x2, .i32⟩ : BufTy).Contents (Elt F) → (⟨S741x1, .i32⟩ : BufTy).Contents (Elt F)),
    reshape main_v28 main_v29 rfl shapeCasts_S741x1_S741,
    nullary main_c_7 (constantI S_ 32 0#32),
    unary main_c_7 main_v30 (broadcastInDim S741 ![] bcast_S_S741 : (⟨S_, .i32⟩ : BufTy).Contents (Elt F) → (⟨S741, .i32⟩ : BufTy).Contents (Elt F)),
    binary main_v29 main_v30 main_v31 (cmpi .slt : (⟨S741, .i32⟩ : BufTy).Contents (Elt F) → (⟨S741, .i32⟩ : BufTy).Contents (Elt F) → (⟨S741, .i1⟩ : BufTy).Contents (Elt F)),
    nullary main_c_8 (constantI S_ 32 39#32),
    unary main_c_8 main_v32 (broadcastInDim S741 ![] bcast_S_S741 : (⟨S_, .i32⟩ : BufTy).Contents (Elt F) → (⟨S741, .i32⟩ : BufTy).Contents (Elt F)),
    binary main_v29 main_v32 main_v33 (addi : (⟨S741, .i32⟩ : BufTy).Contents (Elt F) → (⟨S741, .i32⟩ : BufTy).Contents (Elt F) → (⟨S741, .i32⟩ : BufTy).Contents (Elt F)),
    ternary main_v31 main_v33 main_v29 main_v34 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v34 main_v35 (broadcastInDim S741x1 ![0] bcast_S741_S741x1_0 : (⟨S741, .i32⟩ : BufTy).Contents (Elt F) → (⟨S741x1, .i32⟩ : BufTy).Contents (Elt F)),
    binary main_v18 main_v35 main_v36 ((fun x i => Host.gather gather_S8192x39x16_S741x1_S8192x741x16_02_1_n_n_1_1_8192116 x i) : (⟨S8192x39x16, .f32⟩ : BufTy).Contents (Elt F) → (⟨S741x1, .i32⟩ : BufTy).Contents (Elt F) → (⟨S8192x741x16, .f32⟩ : BufTy).Contents (Elt F)),
    binary main_v27 main_v36 main_v37 (mulf : (⟨S8192x741x16, .f32⟩ : BufTy).Contents (Elt F) → (⟨S8192x741x16, .f32⟩ : BufTy).Contents (Elt F) → (⟨S8192x741x16, .f32⟩ : BufTy).Contents (Elt F)),
    nullary main_cst_9 (constant S_ .f32 0x00000000#32),
    binary main_v37 main_cst_9 main_v38 ((fun x v => Host.reduceAdd x v reducesTo_S8192x741x16_S8192x741_d2 h_S_) : (⟨S8192x741x16, .f32⟩ : BufTy).Contents (Elt F) → (⟨S_, .f32⟩ : BufTy).Contents (Elt F) → (⟨S8192x741, .f32⟩ : BufTy).Contents (Elt F)),
    binary main_v38 main_arg2 main_v39 ((fun l r => Host.dotGeneral dot_S8192x741_S741x1_S8192x1_1_0_0_1_n_n none l r) : (⟨S8192x741, .f32⟩ : BufTy).Contents (Elt F) → (⟨S741x1, .f32⟩ : BufTy).Contents (Elt F) → (⟨S8192x1, .f32⟩ : BufTy).Contents (Elt F)),
    binary main_v11 main_v8 main_v40 (addf : (⟨S8192x1, .f32⟩ : BufTy).Contents (Elt F) → (⟨S8192x1, .f32⟩ : BufTy).Contents (Elt F) → (⟨S8192x1, .f32⟩ : BufTy).Contents (Elt F)),
    binary main_v40 main_v39 main_v41 (addf : (⟨S8192x1, .f32⟩ : BufTy).Contents (Elt F) → (⟨S8192x1, .f32⟩ : BufTy).Contents (Elt F) → (⟨S8192x1, .f32⟩ : BufTy).Contents (Elt F)) ]

/-- The printed program is this list run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., nullary_bufs_sub .., binary_bufs_sub ..,
   unary_bufs_sub .., nullary_bufs_sub .., unary_bufs_sub .., unary_bufs_sub .., binary_bufs_sub .., nullary_bufs_sub ..,
   unary_bufs_sub .., binary_bufs_sub .., nullary_bufs_sub .., unary_bufs_sub .., binary_bufs_sub .., ternary_bufs_sub ..,
   unary_bufs_sub .., binary_bufs_sub .., unary_bufs_sub .., reshape_bufs_sub .., nullary_bufs_sub .., unary_bufs_sub ..,
   binary_bufs_sub .., nullary_bufs_sub .., unary_bufs_sub .., binary_bufs_sub .., ternary_bufs_sub .., unary_bufs_sub ..,
   binary_bufs_sub .., unary_bufs_sub .., reshape_bufs_sub .., nullary_bufs_sub .., unary_bufs_sub .., binary_bufs_sub ..,
   nullary_bufs_sub .., unary_bufs_sub .., binary_bufs_sub .., ternary_bufs_sub .., unary_bufs_sub .., binary_bufs_sub ..,
   binary_bufs_sub .., nullary_bufs_sub .., binary_bufs_sub .., binary_bufs_sub .., binary_bufs_sub .., binary_bufs_sub ..⟩

/-- From any memory with zero counters, for any float values: the run ends with the result array at the composed
    term of the five argument arrays, each argument array as it was at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = Fwfm.refTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v41).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Value

end
-- ==== Proof.LibGatherMiddle.lean ====
/-
  Reading a gather of rows along the MIDDLE axis of a rank-3 array at one element.

  gather_mid: from an array [B × N × D], for every start position in an [n × 1] column, the [B × 1 × D] slab at that
  position of the middle axis is taken, giving [B × n × D]; result element (b, p, q) is the operand at
  (b, s, q) with s the start position of p read signed and clamped into [0, N − 1]. This is what x[:, idx, :] with a
  vector of positions computes. Generic in the sizes, the element type and the dimension-number record; the record's
  fields enter as hypotheses.
-/
import proofs.«151562_j47021301957264_1_alg».proof.Proof.LibGatherScatter

namespace Cert.LibGatherMiddle

open Idealize.ShloMosaic Idealize.ShloMosaic.ValueIdx

/-- Rows of a [B × N × D] array taken along its middle axis at a column of start positions: result element (b, p, q) is
    the operand at (b; the start position of p, read signed and clamped into [0, N − 1]; q). -/
theorem gather_mid {α : Type} {B N D n w : Nat} (d : GatherDims ⟨3, ![B, N, D]⟩ ⟨2, ![n, 1]⟩ ⟨3, ![B, n, D]⟩)
    (hoff : d.offsetDims = [0, 2]) (hcoll : d.collapsedSliceDims = [1]) (hob : d.operandBatchingDims = [])
    (hsim : d.startIndexMap = [1]) (hivd : d.indexVectorDim = 1) (hss : d.sliceSizes = ![B, 1, D])
    (x : (⟨3, ![B, N, D]⟩ : Shape).Idx → α) (idx : IVec ⟨2, ![n, 1]⟩ w) (b : Fin B) (p : Fin n) (q : Fin D) (hN : 0 < N) :
    Host.gather d x idx (ix3 b p q)
      = x (ix3 b ⟨min (idx (ix2 p (0 : Fin 1))).toInt.toNat (N - 1), by omega⟩ q) := by
  unfold Host.gather
  congr 1
  have hsk : d.sKept = [0, 2] := by
    show Shape.kept _ (d.collapsedSliceDims ++ d.operandBatchingDims) = [0, 2]
    rw [hcoll, hob]; rfl
  have hbd : d.batchDims = [1] := by
    show Shape.kept _ d.offsetDims = [1]
    rw [hoff]; rfl
  have hsik : d.siKept = [0] := by
    show (List.finRange _).filter (·.val ≠ d.indexVectorDim) = [0]
    rw [hivd]; rfl
  have hob' : ∀ a : Fin 3, a ∉ d.operandBatchingDims := fun a => by rw [hob]; exact List.not_mem_nil
  have h0 : (d.operandIdx (ix3 b p q) idx (0 : Fin 3)).val = b.val := by
    have hk : (0 : Fin 3) ∈ d.sKept := by rw [hsk]; simp
    have hm : (0 : Fin 3) ∉ d.startIndexMap := by rw [hsim]; simp
    simp only [GatherDims.operandIdx, GatherDims.batchCoord_eq_zero _ _ _ (hob' 0),
      Nat.add_zero, GatherDims.start, dif_neg hm, GatherDims.offCoord, dif_pos hk, Nat.zero_add]
    have e : ∀ X : Fin 3, X = 0 → ((ix3 b p q : (⟨3, ![B, n, D]⟩ : Shape).Idx) X).val = b.val := fun X hX => by
      subst hX; rfl
    apply e
    rw [Cert.LibGatherScatter.getElem_congr' hoff (show List.idxOf _ d.sKept = 0 by rw [hsk]; rfl)]
    rfl
  have h1 : (d.operandIdx (ix3 b p q) idx (1 : Fin 3)).val = min (idx (ix2 p (0 : Fin 1))).toInt.toNat (N - 1) := by
    have hk : (1 : Fin 3) ∉ d.sKept := by rw [hsk]; simp
    have hm : (1 : Fin 3) ∈ d.startIndexMap := by rw [hsim]; exact List.mem_singleton.mpr rfl
    have hsl : d.sliceSizes 1 = 1 := by rw [hss]; rfl
    simp only [GatherDims.operandIdx, GatherDims.batchCoord_eq_zero _ _ _ (hob' 1), GatherDims.offCoord_eq_zero _ _ _ hk,
      Nat.add_zero, GatherDims.start, dif_pos hm]
    show min (idx _).toInt.toNat (N - d.sliceSizes 1) = min (idx (ix2 p (0 : Fin 1))).toInt.toNat (N - 1)
    rw [hsl]
    congr 3
    congr 1
    funext c
    match c with
    | ⟨0, _⟩ =>
      unfold GatherDims.siIdx
      rw [dif_neg (by rw [hivd]; simp)]
      unfold GatherDims.siCoord
      apply Fin.ext
      simp only [Fin.val_cast]
      have e : ∀ X : Fin 3, X = 1 → ((ix3 b p q : (⟨3, ![B, n, D]⟩ : Shape).Idx) X).val = p.val := fun X hX => by
        subst hX; rfl
      apply e
      rw [Cert.LibGatherScatter.getElem_congr' hbd (show List.idxOf _ d.siKept = 0 by rw [hsik]; rfl)]
      rfl
    | ⟨1, _⟩ =>
      unfold GatherDims.siIdx
      rw [dif_pos (by rw [hivd])]
      apply Fin.ext
      show List.idxOf (1 : Fin 3) d.startIndexMap = 0
      rw [hsim]; simp
  have h2 : (d.operandIdx (ix3 b p q) idx (2 : Fin 3)).val = q.val := by
    have hk : (2 : Fin 3) ∈ d.sKept := by rw [hsk]; simp
    have hm : (2 : Fin 3) ∉ d.startIndexMap := by rw [hsim]; simp
    simp only [GatherDims.operandIdx, GatherDims.batchCoord_eq_zero _ _ _ (hob' 2),
      Nat.add_zero, GatherDims.start, dif_neg hm, GatherDims.offCoord, dif_pos hk, Nat.zero_add]
    have e : ∀ X : Fin 3, X = 2 → ((ix3 b p q : (⟨3, ![B, n, D]⟩ : Shape).Idx) X).val = q.val := fun X hX => by
      subst hX; rfl
    apply e
    rw [Cert.LibGatherScatter.getElem_congr' hoff (show List.idxOf _ d.sKept = 1 by rw [hsk]; rfl)]
    rfl
  funext a
  apply Fin.ext
  match a with
  | ⟨0, _⟩ => exact h0
  | ⟨1, _⟩ => exact h1
  | ⟨2, _⟩ => exact h2

end Cert.LibGatherMiddle
-- ==== Proof.RefValue.lean ====
/-
  The reference's score from the gathered arrays is the specification: the pairs' fields read off the literal table,
  each pair's product summed over the 16 coordinates, the 741 sums contracted with the weights; 1 · bias is bias, and the
  three summands are reordered.

  The table's entries are the pairs' fields, all below 39: read signed they are not negative, so the wrap-around of a
  negative position leaves them alone, and the clamp into [0, 38] does too. So the rows taken along the middle axis are the
  rows E(b, i_k, ·) and E(b, j_k, ·); their entrywise product summed over the 16 coordinates, from the initial value 0, is
  the pair's inner product; and the contraction over the 741 pairs with the weight column is the second-order term.
-/
import proofs.«151562_j47021301957264_1_alg».proof.Proof.Gen.ReferenceIdeal
import proofs.«151562_j47021301957264_1_alg».proof.Proof.RefTerms
import proofs.«151562_j47021301957264_1_alg».proof.Proof.PairTable
import proofs.«151562_j47021301957264_1_alg».proof.Proof.LibGatherScatter
import proofs.«151562_j47021301957264_1_alg».proof.Proof.LibGatherMiddle
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.IdealHost

noncomputable section

namespace Cert.ReferenceIdeal.Fwfm

open Idealize.ShloMosaic Idealize.ShloMosaic.ValueIdx Cert.ReferenceIdeal Cert.Fwfm
open Facts₀ Facts
open Cert.LibGatherMiddle

/-! ## The start positions -/

/-- A table entry below 39 passes the normalisation unchanged: it is not negative, so the select keeps it. -/
private theorem normCol_apply (col : IVec S741x1 32) (k : Fin 741) (v : Fin 39) (h : col (ix2 k (0 : Fin 1)) = BitVec.ofNat 32 v.val) :
    normCol col (ix2 k (0 : Fin 1)) = BitVec.ofNat 32 v.val := by
  unfold normCol
  rw [broadcastInDim_apply _ _ _ (ix2 k (0 : Fin 1)) (ix1 k) (fun a => by
    match a with
    | ⟨0, _⟩ => show k.val = if (741 : Nat) = 1 then 0 else k.val; rw [if_neg (by decide)])]
  have hc : shapeCast S741 col shapeCasts_S741x1_S741 (ix1 k) = BitVec.ofNat 32 v.val := by
    rw [shapeCast_apply col _ (ix1 k) (ix2 k (0 : Fin 1)) (by
      rw [Shape.rowMajor_val_two, Shape.rowMajor_val_one]
      show k.val * 1 + 0 = k.val
      omega), h]
  rw [select_apply]
  have hcmp : cmpi .slt (shapeCast S741 col shapeCasts_S741x1_S741)
      (broadcastInDim S741 ![] bcast_S_S741 (constantI S_ 32 0#32)) (ix1 k) = 0#1 := by
    show IntOp.cmpi .slt (shapeCast S741 col shapeCasts_S741x1_S741 (ix1 k))
      (broadcastInDim S741 ![] bcast_S_S741 (constantI S_ 32 0#32) (ix1 k)) = 0#1
    rw [hc, broadcastInDim_scalar_apply]
    apply eq_zero_of_ne_one
    intro hh
    have hv := v.isLt
    rw [StableHlo.Predicate.slt_iff_toNat (by rw [BitVec.toNat_ofNat]; omega) (by decide)] at hh
    exact absurd hh (Nat.not_lt_zero _)
  rw [hcmp, select_zero, hc]

/-- A start position that is a small natural number v < N, read signed and clamped into [0, N − 1], is v. -/
private theorem clamp_small {N : Nat} (w : BitVec 32) (v : Fin N) (hN : N ≤ 2 ^ 31) (hw : w = BitVec.ofNat 32 v.val)
    (h : min w.toInt.toNat (N - 1) < N) : (⟨min w.toInt.toNat (N - 1), h⟩ : Fin N) = v := by
  apply Fin.ext
  have hv := v.isLt
  show min w.toInt.toNat (N - 1) = v.val
  rw [hw, StableHlo.Predicate.toInt_ofNat_small v.val (by omega), Int.toNat_natCast]
  omega

/-- The table's column 0, read at row k, holds the pair's first field. -/
private theorem col0_apply (k : Fin 741) :
    extractStridedSlice S741x1 ![0, 0] pairTable slices_S741x2_S741x1_0_0 (ix2 k (0 : Fin 1)) = BitVec.ofNat 32 (pairI k).val := by
  rw [extractStridedSlice_apply _ _ _ (ix2 k (0 : Fin 1)) (ix2 k (0 : Fin 2)) (fun a => by
    match a with
    | ⟨0, _⟩ => show k.val = 0 + k.val; omega
    | ⟨1, _⟩ => show (0 : Nat) = 0 + 0; rfl)]
  exact (tblR k).1

/-- Likewise column 1 holds the pair's second field. -/
private theorem col1_apply (k : Fin 741) :
    extractStridedSlice S741x1 ![0, 1] pairTable slices_S741x2_S741x1_0_1 (ix2 k (0 : Fin 1)) = BitVec.ofNat 32 (pairJ k).val := by
  rw [extractStridedSlice_apply _ _ _ (ix2 k (0 : Fin 1)) (ix2 k (1 : Fin 2)) (fun a => by
    match a with
    | ⟨0, _⟩ => show k.val = 0 + k.val; omega
    | ⟨1, _⟩ => show (1 : Nat) = 1 + 0; rfl)]
  exact (tblR k).2

/-! ## The two gathered arrays -/

/-- The first gathered array at (b, k, d) is the embedding of the pair's first field. -/
private theorem fieldI_apply (E : FVec Ideal S8192x39x16 .f32) (b : Fin 8192) (k : Fin 741) (d : Fin 16) :
    fieldI (F := Ideal) E (ix3 b k d) = E (ix3 b (pairI k) d) := by
  unfold fieldI
  rw [gather_mid _ rfl rfl rfl rfl rfl rfl E _ b k d (by decide)]
  exact congrArg (fun f => E (ix3 b f d)) (clamp_small _ _ (by decide) (normCol_apply _ k (pairI k) (col0_apply k)) _)

/-- The second gathered array at (b, k, d) is the embedding of the pair's second field. -/
private theorem fieldJ_apply (E : FVec Ideal S8192x39x16 .f32) (b : Fin 8192) (k : Fin 741) (d : Fin 16) :
    fieldJ (F := Ideal) E (ix3 b k d) = E (ix3 b (pairJ k) d) := by
  unfold fieldJ
  rw [gather_mid _ rfl rfl rfl rfl rfl rfl E _ b k d (by decide)]
  exact congrArg (fun f => E (ix3 b f d)) (clamp_small _ _ (by decide) (normCol_apply _ k (pairJ k) (col1_apply k)) _)

/-! ## The inner products -/

/-- Each pair's entrywise product summed over the 16 coordinates is the pair's inner product. -/
private theorem inner_apply (E : FVec Ideal S8192x39x16 .f32) (b : Fin 8192) (k : Fin 741) :
    Host.reduceAdd (mulf (fieldI (F := Ideal) E) (fieldJ (F := Ideal) E)) (constant (F := Ideal) S_ .f32 0x00000000#32)
        reducesTo_S8192x741x16_S8192x741_d2 h_S_ (ix2 b k)
      = gram E b (pairI k) (pairJ k) := by
  have hR : S8192x741x16.Reduces [2] S8192x741 := by decide
  rw [hostReduceAdd_apply, Ideal.hostReduceAdd_single _ hR, constant_apply, Ideal.ofBits_zero_f32, zero_add]
  show ∑ d : Fin 16, mulf (fieldI (F := Ideal) E) (fieldJ (F := Ideal) E) (hR.lift (ix2 b k) d)
    = ∑ d : Fin 16, E (ix3 b (pairI k) d) * E (ix3 b (pairJ k) d)
  refine Finset.sum_congr rfl fun d _ => ?_
  have hl : hR.lift (ix2 b k) d = ix3 b k d := funext fun a => Fin.ext (by
    match a with
    | ⟨0, _⟩ => rfl
    | ⟨1, _⟩ => rfl
    | ⟨2, _⟩ => rfl)
  rw [hl, mulf_apply, fieldI_apply, fieldJ_apply]

/-! ## The contraction with the weights -/

/-- The contraction's dimension numbers: [8192 × 741] by [741 × 1] over the 741. -/
private abbrev Dd : DotDims S8192x741 S741x1 S8192x1 := dot_S8192x741_S741x1_S8192x1_1_0_0_1_n_n

/-- The operand indices of the contraction, coordinate by coordinate: the left operand reads (row, pair), the right (pair, ·). -/
private theorem Dd_lhs_0 (j : S8192x1.Idx) (k : Dd.contr.Idx) : (Dd.lhsIdx j k 0 : ℕ) = j 0 := by
  simp [DotDims.lhsIdx, Dd, dot_S8192x741_S741x1_S8192x1_1_0_0_1_n_n]; rfl
private theorem Dd_lhs_1 (j : S8192x1.Idx) (k : Dd.contr.Idx) : (Dd.lhsIdx j k 1 : ℕ) = k ⟨0, by decide⟩ := by
  simp [DotDims.lhsIdx, Dd, dot_S8192x741_S741x1_S8192x1_1_0_0_1_n_n]; rfl
private theorem Dd_rhs_0 (j : S8192x1.Idx) (k : Dd.contr.Idx) : (Dd.rhsIdx j k 0 : ℕ) = k ⟨0, by decide⟩ := by
  simp [DotDims.rhsIdx, Dd, dot_S8192x741_S741x1_S8192x1_1_0_0_1_n_n]; rfl

/-- The contraction's index is the pair's number. -/
private def DdEquiv : Dd.contr.Idx ≃ Fin 741 := contrEquiv1 Dd 741 (by decide) (by decide)

/-- At result row b and pair k the left operand is read at (b, k). -/
private theorem Dd_lhs (b : Fin 8192) (z : Fin 1) (k : Fin 741) : Dd.lhsIdx (ix2 b z) (DdEquiv.symm k) = ix2 b k := by
  funext a
  apply Fin.ext
  match a with
  | ⟨0, _⟩ => exact Dd_lhs_0 _ _
  | ⟨1, _⟩ => exact (Dd_lhs_1 _ _).trans (contrEquiv1_symm_val Dd 741 (by decide) (by decide) k)

/-- At pair k the right operand is read at (k, 0): its second axis has one position. -/
private theorem Dd_rhs (b : Fin 8192) (z : Fin 1) (k : Fin 741) : Dd.rhsIdx (ix2 b z) (DdEquiv.symm k) = ix2 k (0 : Fin 1) := by
  funext a
  apply Fin.ext
  match a with
  | ⟨0, _⟩ => exact (Dd_rhs_0 _ _).trans (contrEquiv1_symm_val Dd 741 (by decide) (by decide) k)
  | ⟨1, _⟩ => exact Nat.lt_one_iff.mp (Dd.rhsIdx (ix2 b z) (DdEquiv.symm k) 1).isLt

/-! ## The score -/

/-- The reference's score is the specification, index by index: 1 · bias = bias, the sum from 0 is the sum, and the three
    summands are reordered (addition of extended reals is commutative and associative). -/
theorem scoreOf_eq (E : FVec Ideal S8192x39x16 .f32) (FO : FVec Ideal S8192x1 .f32) (a2 : FVec Ideal S741x1 .f32) (a4 : FVec Ideal S_ .f32) :
    scoreOf (F := Ideal) E FO a2 a4 = Cert.Fwfm.G E FO a2 a4 := by
  funext i
  obtain ⟨b, z, rfl⟩ : ∃ (b : Fin 8192) (z : Fin 1), i = ix2 b z := ⟨i 0, i 1, eq_ix2 i⟩
  unfold scoreOf
  rw [addf_apply, addf_apply, mulf_apply, broadcastInDim_scalar_apply, broadcastInDim_scalar_apply, constant_apply,
    Ideal.ofBits_one_f32, one_mul]
  simp only [Host.dotGeneral]
  rw [Ideal.dotGeneral_apply, ← Equiv.sum_comp DdEquiv.symm]
  simp only [Dd_lhs, Dd_rhs, inner_apply]
  show (a4 ix0 + FO (ix2 b z)) + second E a2 b = second E a2 b + FO (ix2 b z) + a4 ix0
  rw [add_comm (a4 ix0), add_comm _ (second E a2 b), add_assoc]

end Cert.ReferenceIdeal.Fwfm

end
-- ==== Proof.Cross.lean ====
/-
  The two programs gather the embeddings and form the first-order column by the same host computations of the same
  argument arrays: their dimension-number records and shape facts are stated twice, once per program, with equal fields.
-/
import proofs.«151562_j47021301957264_1_alg».proof.Proof.Gen.KernelIdeal
import proofs.«151562_j47021301957264_1_alg».proof.Proof.Gen.ReferenceIdeal
import proofs.«151562_j47021301957264_1_alg».proof.Proof.KerTerms
import proofs.«151562_j47021301957264_1_alg».proof.Proof.RefTerms

noncomputable section

namespace Cert.Fwfm

open Idealize.ShloMosaic

variable {F : FTy → Type} [FloatOps F]

/-- The gathered embeddings. -/
theorem embOf_eq (a0 : IVec Cert.KernelIdeal.S8192x39 32) (a1 : FVec F Cert.KernelIdeal.S1000000x16 .f32) :
    Cert.ReferenceIdeal.Fwfm.embOf (F := F) a0 a1 = Cert.KernelIdeal.Fwfm.embOf (F := F) a0 a1 := rfl

/-- The first-order column. -/
theorem foOf_eq (a0 : IVec Cert.KernelIdeal.S8192x39 32) (a3 : FVec F Cert.KernelIdeal.S1000000 .f32) :
    Cert.ReferenceIdeal.Fwfm.foOf (F := F) a0 a3 = Cert.KernelIdeal.Fwfm.foOf (F := F) a0 a3 := rfl

end Cert.Fwfm

end
-- ==== Proof.lean ====
/-
  The certificate: the kernel program and its reference compute the same score over the extended reals.

  Both programs gather each field's embedding row and each row's first-order sum by the same host computations. The
  reference sums, over the 741 pairs of fields, the pair's inner product times the pair's weight. The kernel program places
  the 741 weights at their entries of a 39 × 39 matrix of zeros, multiplies the full Gram matrix of a row's embeddings by
  it entrywise and sums every entry: the entries off the pairs contribute x · 0 = 0 and the pairs are pairwise distinct, so
  the two sums are one; the remaining difference is the order of three summands and a factor 1. Nothing here needs the
  inputs to be finite. The three frames: the two kernel programs' by the generated frame certificates, the reference's from
  its run. The idealization rewrote nothing, so its claim is trivial.
-/
import proofs.«151562_j47021301957264_1_alg».proof.Defs
import proofs.«151562_j47021301957264_1_alg».proof.Proof.Gen.Kernel
import proofs.«151562_j47021301957264_1_alg».proof.Proof.Gen.Kernel.Frame
import proofs.«151562_j47021301957264_1_alg».proof.Proof.Gen.KernelIdeal
import proofs.«151562_j47021301957264_1_alg».proof.Proof.Gen.KernelIdeal.Frame
import proofs.«151562_j47021301957264_1_alg».proof.Proof.Gen.ReferenceIdeal
import proofs.«151562_j47021301957264_1_alg».proof.Proof.Gen.Pre_finite_inputs
import proofs.«151562_j47021301957264_1_alg».proof.Proof.KerRun
import proofs.«151562_j47021301957264_1_alg».proof.Proof.RefRun
import proofs.«151562_j47021301957264_1_alg».proof.Proof.RefValue
import proofs.«151562_j47021301957264_1_alg».proof.Proof.Cross

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the specification of the argument arrays, which agree. -/
theorem algebraic : Cert.algebraic_KernelIdeal_ReferenceIdeal := by
  intro m ρ m' ρ' _ hagree
  refine ⟨_, Cert.KernelIdeal.Fwfm.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  unfold Cert.ReferenceIdeal.Fwfm.refTerm
  rw [Cert.ReferenceIdeal.Fwfm.scoreOf_eq, Cert.Fwfm.embOf_eq, Cert.Fwfm.foOf_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
